-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x3x512 : Shape := ⟨3, ![1, 3, 512]⟩
abbrev S1x1x512 : Shape := ⟨3, ![1, 1, 512]⟩
abbrev S1x1x8192 : Shape := ⟨3, ![1, 1, 8192]⟩
abbrev S1x512 : Shape := ⟨2, ![1, 512]⟩
abbrev S1x512x1 : Shape := ⟨3, ![1, 512, 1]⟩
abbrev S1x512x512 : Shape := ⟨3, ![1, 512, 512]⟩
abbrev S4x8192 : Shape := ⟨2, ![4, 8192]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x1x8192, .f32⟩
  | .hbm, ⟨5, _⟩ => ⟨S4x1x8192, .f32⟩
  | .hbm, ⟨6, _⟩ => ⟨S4x8192, .f32⟩
  | .hbm, ⟨7, _⟩ => ⟨S4x8192, .f32⟩
  | .local _ .vmem, ⟨0, _⟩ => ⟨S1x3x512, .f32⟩
  | .local _ .vmem, ⟨1, _⟩ => ⟨S1x3x512, .f32⟩
  | .local _ .vmem, ⟨2, _⟩ => ⟨S1x3x512, .f32⟩
  | .local _ .vmem, ⟨3, _⟩ => ⟨S1x3x512, .f32⟩
  | .local _ .vmem, ⟨4, _⟩ => ⟨S1x1x512, .f32⟩
  | .local _ .vmem, ⟨5, _⟩ => ⟨S1x1x512, .f32⟩
  | .local _ .vmem, ⟨6, _⟩ => ⟨S1x1x8192, .f32⟩
  | .local _ .vmem, ⟨7, _⟩ => ⟨S1x1x8192, .f32⟩
  | .local _ .vmem, ⟨8, _⟩ => ⟨S1x1x512, .f32⟩
  | .local _ .vmem, ⟨9, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

def k0_mult1 (i : grid0.Coords) : BitVec 32 :=
  let arg2 : BitVec 32 := BitVec.ofNat 32 (i 2).val
  let c512_i32 : BitVec 32 := 512#32
  let v57 : BitVec 32 := Scalar.muli arg2 c512_i32
  v57
def k0_off1 (i : grid0.Coords) : Fin 3 → Nat :=
  let c0_17 : Index := 0#32
  let c0_18 : Index := 0#32
  let arg2 : BitVec 32 := BitVec.ofNat 32 (i 2).val
  let c512_i32 : BitVec 32 := 512#32
  let v57 : BitVec 32 := Scalar.muli arg2 c512_i32
  let v58 : BitVec 32 := v57
  let v59 : Index := Scalar.indexCast v58
  ![0, 0, v59.toNat]
def k0_cond2 (i : grid0.Coords) : BitVec 1 :=
  let arg2 : BitVec 32 := BitVec.ofNat 32 (i 2).val
  let c15_i32 : BitVec 32 := 15#32
  let v49 : BitVec 1 := Scalar.cmpi .eq arg2 c15_i32
  let v50 : BitVec 32 := Scalar.extui v49
  let c0_i32_13 : BitVec 32 := 0#32
  let v51 : BitVec 1 := Scalar.cmpi .ne v50 c0_i32_13
  v51

def k0_cond4 (i : grid0.Coords) : BitVec 1 :=
  let arg1 : BitVec 32 := BitVec.ofNat 32 (i 1).val
  let c15_i32_21 : BitVec 32 := 15#32
  let v66 : BitVec 1 := Scalar.cmpi .eq arg1 c15_i32_21
  let arg2 : BitVec 32 := BitVec.ofNat 32 (i 2).val
  let c15_i32_22 : BitVec 32 := 15#32
  let v67 : BitVec 1 := Scalar.cmpi .eq arg2 c15_i32_22
  let v68 : BitVec 1 := Scalar.andi v66 v67
  let v69 : BitVec 32 := Scalar.extui v68
  let c0_i32_23 : BitVec 32 := 0#32
  let v70 : BitVec 1 := Scalar.cmpi .ne v69 c0_i32_23
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x3x512_S1x3x512_0_0_0 : ∀ a, (![0, 0, 0] : Fin 3 → Nat) a + S1x3x512.size a ≤ S1x3x512.size a
  h_S1x3x512 : 0 < S1x3x512.numel
  shapeCasts_S1x3x512_S1x3x512 : S1x3x512.ShapeCasts S1x3x512
  slices_S1x3x512_o0_0_0_S1x1x512 : S1x3x512.Slices ![0, 0, 0] S1x1x512
  shapeCasts_S1x1x512_S1x512 : S1x1x512.ShapeCasts S1x512
  shapeCasts_S1x512_S1x512x1 : S1x512.ShapeCasts S1x512x1
  shapeCasts_S1x512_S1x1x512 : S1x512.ShapeCasts S1x1x512
  broadcasts_S1x512x1_S1x512x512 : S1x512x1.Broadcasts S1x512x512
  broadcasts_S1x1x512_S1x512x512 : S1x1x512.Broadcasts S1x512x512
  slices_S1x3x512_o0_1_0_S1x1x512 : S1x3x512.Slices ![0, 1, 0] S1x1x512
  slices_S1x3x512_o0_2_0_S1x1x512 : S1x3x512.Slices ![0, 2, 0] S1x1x512
  reduces_S1x512x512_S1x512 : S1x512x512.Reduces [1] S1x512
  reduces_S1x512x512_S1x512_2 : S1x512x512.Reduces [2] S1x512
  transposes_S1x512x1_p0_2_1_S1x1x512 : S1x512x1.Transposes [0, 2, 1] S1x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x1x8192 : S1x1x8192.ShapeCasts S1x1x8192
  shapeCasts_S4x1x8192_S4x8192 : S4x1x8192.ShapeCasts S4x8192
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x8192.size a
  hwx0_0 : ∀ i : grid0.Coords, EltTy.bits .f32 = 32 ∨ (Rect.block (s := S4x3x8192) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S4x3x8192.size a
  hwx0_1 : ∀ i : grid0.Coords, EltTy.bits .f32 = 32 ∨ (Rect.block (s := S4x3x8192) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x8192.size a
  hwx0_2 : ∀ i : grid0.Coords, EltTy.bits .f32 = 32 ∨ (Rect.block (s := S4x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Chamfer.lean ====
/-
  The mathematics of the two nearest-neighbour minima, free of any program.

  Two clouds of 8192 points of three coordinates per batch entry, x1 and x2, both of shape [4, 8192, 3].
  dist x1 x2 b n m is the squared distance between point n of the first cloud and point m of the second, written
  as the sum of the three squared coordinate differences, the differences taken as second minus first.  near1 at
  (b, n) is the infimum over m of those distances and near2 at (b, m) the infimum over n: the infimum of
  a finite family of extended reals, ⊤ the value of the empty one.

  A sweep over the clouds in tiles of 512 points accumulates the same infima tile by tile.  tmin1 b i j l is the
  infimum over the 512 points of tile j of the second cloud of the distance from point l of tile i of the first;
  tmin2 b i j a the infimum over the points of tile i of the first cloud of the distance to point a of tile j
  of the second.  acc1 is the running infimum of tmin1 over the tiles 0 … j of the second cloud, and acc2,
  one value per point q of the second cloud, the running infimum of tmin2 over the tiles of the first cloud met so far
  for q's own tile: tiles 0 … i when the sweep at (i, j) has reached q's tile (q / 512 ≤ j), tiles 0 … i - 1
  otherwise.  After the last tile both are the whole infimum (inf_tiles): every point is point r % 512 of
  tile r / 512.
-/
import Idealize.ShloMosaic.PureOps.Ideal
import Idealize.ShloMosaic.Lib.ValueIdx

noncomputable section

namespace Cert.Chamfer

open Idealize.ShloMosaic Idealize.ShloMosaic.ValueIdx

/-- A cloud per batch entry: [4, 8192, 3] extended reals. -/
abbrev Pts : Type := (⟨3, ![4, 8192, 3]⟩ : Shape).Idx → EReal

/-- The squared distance between two points of three coordinates: the squared differences (second minus first), added
    in coordinate order. -/
def sq3 (u v : Fin 3 → EReal) : EReal :=
  ((v 0 - u 0) * (v 0 - u 0) + (v 1 - u 1) * (v 1 - u 1)) + (v 2 - u 2) * (v 2 - u 2)

/-- Point n of batch entry b. -/
def pt (x : Pts) (b : Fin 4) (n : Fin 8192) : Fin 3 → EReal := fun d => x (ix3 b n d)

/-- The squared distance between point n of the first cloud and point m of the second. -/
def dist (x1 x2 : Pts) (b : Fin 4) (n m : Fin 8192) : EReal := sq3 (pt x1 b n) (pt x2 b m)

/-- For each point of the first cloud, the least squared distance to the second. -/
def near1 (x1 x2 : Pts) : (⟨2, ![4, 8192]⟩ : Shape).Idx → EReal :=
  fun i => Finset.univ.inf fun m : Fin 8192 => dist x1 x2 (i 0) (i 1) m

/-- For each point of the second cloud, the least squared distance to the first. -/
def near2 (x1 x2 : Pts) : (⟨2, ![4, 8192]⟩ : Shape).Idx → EReal :=
  fun i => Finset.univ.inf fun n : Fin 8192 => dist x1 x2 (i 0) n (i 1)

/-- Point a of tile j (tiles of 512 points; the tile number is read modulo 16, so that the function is total). -/
def at512 (j : ℕ) (a : Fin 512) : Fin 8192 := ⟨(j % 16) * 512 + a.val, by have := a.isLt; omega⟩

theorem at512_val (j : ℕ) (a : Fin 512) : (at512 j a).val = (j % 16) * 512 + a.val := rfl

/-- Every point is point r % 512 of tile r / 512. -/
theorem at512_div_mod (r : Fin 8192) : at512 (r.val / 512) ⟨r.val % 512, Nat.mod_lt _ (by decide)⟩ = r := by
  apply Fin.ext
  have := r.isLt
  show (r.val / 512 % 16) * 512 + r.val % 512 = r.val
  omega

/-- Tile j's least distance from point l of tile i of the first cloud. -/
def tmin1 (x1 x2 : Pts) (b : Fin 4) (i j : ℕ) (l : Fin 512) : EReal :=
  Finset.univ.inf fun a : Fin 512 => dist x1 x2 b (at512 i l) (at512 j a)

/-- Tile i's least distance to point a of tile j of the second cloud. -/
def tmin2 (x1 x2 : Pts) (b : Fin 4) (i j : ℕ) (a : Fin 512) : EReal :=
  Finset.univ.inf fun l : Fin 512 => dist x1 x2 b (at512 i l) (at512 j a)

/-- The running infimum over the second cloud's tiles 0 … j. -/
def acc1 (x1 x2 : Pts) (b : Fin 4) (i j : ℕ) (l : Fin 512) : EReal :=
  (Finset.range (j + 1)).inf fun j' => tmin1 x1 x2 b i j' l

/-- How many tiles of the first cloud the sweep at (i, j) has folded into the value of a point of tile jq of the second. -/
def cnt (i j jq : ℕ) : ℕ := if jq ≤ j then i + 1 else i

/-- The running infimum, for point q of the second cloud, over the first cloud's tiles met so far. -/
def acc2 (x1 x2 : Pts) (b : Fin 4) (i j : ℕ) (q : Fin 8192) : EReal :=
  (Finset.range (cnt i j (q.val / 512))).inf fun i' =>
    tmin2 x1 x2 b i' (q.val / 512) ⟨q.val % 512, Nat.mod_lt _ (by decide)⟩

/-- An infimum over 8192 points is the infimum over the 16 tiles of the tiles' infima. -/
theorem inf_tiles (f : Fin 8192 → EReal) :
    Finset.univ.inf f = (Finset.range 16).inf fun j => Finset.univ.inf fun a : Fin 512 => f (at512 j a) := by
  apply le_antisymm
  · refine Finset.le_inf fun j _ => Finset.le_inf fun a _ => Finset.inf_le (Finset.mem_univ _)
  · refine Finset.le_inf fun r _ => ?_
    have hr := r.isLt
    refine le_trans (Finset.inf_le (Finset.mem_range.mpr (show r.val / 512 < 16 by omega))) ?_
    refine le_trans (Finset.inf_le (Finset.mem_univ (⟨r.val % 512, Nat.mod_lt _ (by decide)⟩ : Fin 512))) ?_
    rw [at512_div_mod]

/-- After the last tile of the second cloud, the running infimum is the whole one. -/
theorem acc1_last (x1 x2 : Pts) (b : Fin 4) (n : Fin 8192) :
    acc1 x1 x2 b (n.val / 512) 15 ⟨n.val % 512, Nat.mod_lt _ (by decide)⟩
      = Finset.univ.inf fun m : Fin 8192 => dist x1 x2 b n m := by
  unfold acc1 tmin1
  rw [at512_div_mod, inf_tiles]

/-- After the last tile of both clouds, the running infimum for every point of the second cloud is the whole one. -/
theorem acc2_last (x1 x2 : Pts) (b : Fin 4) (q : Fin 8192) :
    acc2 x1 x2 b 15 15 q = Finset.univ.inf fun n : Fin 8192 => dist x1 x2 b n q := by
  have hq := q.isLt
  unfold acc2 tmin2
  rw [show cnt 15 15 (q.val / 512) = 16 from by unfold cnt; rw [if_pos (by omega)], at512_div_mod, inf_tiles]

/-- The first tile of the second cloud starts the running infimum from ⊤. -/
theorem acc1_zero (x1 x2 : Pts) (b : Fin 4) (i : ℕ) (l : Fin 512) :
    acc1 x1 x2 b i 0 l = min ⊤ (tmin1 x1 x2 b i 0 l) := by
  unfold acc1
  rw [Finset.range_one, Finset.inf_singleton, min_eq_right le_top]

/-- Each further tile of the second cloud folds its infimum in. -/
theorem acc1_succ (x1 x2 : Pts) (b : Fin 4) (i j : ℕ) (l : Fin 512) :
    acc1 x1 x2 b i (j + 1) l = min (acc1 x1 x2 b i j l) (tmin1 x1 x2 b i (j + 1) l) := by
  unfold acc1
  rw [Finset.range_add_one, Finset.inf_insert, inf_comm]

/-- No tile of the first cloud met yet: ⊤. -/
theorem acc2_none (x1 x2 : Pts) (b : Fin 4) (i j : ℕ) (q : Fin 8192) (h : cnt i j (q.val / 512) = 0) :
    acc2 x1 x2 b i j q = ⊤ := by
  unfold acc2
  rw [h, Finset.range_zero, Finset.inf_empty]

/-- One more tile of the first cloud folded in. -/
theorem acc2_step (x1 x2 : Pts) (b : Fin 4) (i j i' j' : ℕ) (q : Fin 8192)
    (h : cnt i j (q.val / 512) = cnt i' j' (q.val / 512) + 1) :
    acc2 x1 x2 b i j q = min (acc2 x1 x2 b i' j' q)
      (tmin2 x1 x2 b (cnt i' j' (q.val / 512)) (q.val / 512) ⟨q.val % 512, Nat.mod_lt _ (by decide)⟩) := by
  unfold acc2
  rw [h, Finset.range_add_one, Finset.inf_insert, inf_comm]

/-- No new tile for this point: the value stays. -/
theorem acc2_same (x1 x2 : Pts) (b : Fin 4) (i j i' j' : ℕ) (q : Fin 8192)
    (h : cnt i j (q.val / 512) = cnt i' j' (q.val / 512)) :
    acc2 x1 x2 b i j q = acc2 x1 x2 b i' j' q := by
  unfold acc2
  rw [h]

end Cert.Chamfer

end
-- ==== Proof.MinFold.lean ====
/-
  A minimum-reduction over one axis, at the extended reals, is an infimum.

  The vector unit's minimum-reduction and the host's reduce with a minimum body both fold the minimum, from +inf, over the
  entries along the reduced axis; on the extended reals the minimum of two values is their infimum and +inf is ⊤, so the
  fold from ⊤ over a finite family is the family's infimum, whatever the order.
-/
import Idealize.ShloMosaic.PureOps.Ideal.Laws
import Idealize.ShloMosaic.PureOps.Reduce

noncomputable section

namespace Cert.Chamfer

open Idealize.ShloMosaic

/-- The f32 pattern of +inf is ⊤. -/
theorem ofBits_inf : Ideal.ofBits .f32 0x7F800000#32 = (⊤ : EReal) := by
  simp [Ideal.ofBits, Ideal.ieee]

/-- The fold of the minimum from +inf over a finite family is its infimum. -/
theorem fold_minimumf_eq_inf {ι : Type} (s : Finset ι) (f : ι → EReal) :
    s.fold (FloatOps.minimumf (F := Ideal) (φ := .f32)) (FloatOps.ofBits (F := Ideal) .f32 0x7F800000#32) f = s.inf f := by
  classical
  induction s using Finset.induction_on with
  | empty => rw [Finset.fold_empty, Finset.inf_empty]; exact ofBits_inf
  | insert a s ha ih =>
    rw [Finset.fold_insert ha, Finset.inf_insert, ih]
    rfl

/-- The vector unit's minimum-reduction from +inf over one axis, at a result index, is the infimum over that axis's
    coordinates. -/
theorem multiReduction_min_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = Finset.univ.inf fun k : Fin (s.size a) => src (h.lift j k) := by
  classical
  rw [multiReduction_minimumf_eq_fold, h.fold_filter_drop_single]
  exact fold_minimumf_eq_inf _ _

/-- The host's reduce with a minimum body from +inf over one axis likewise. -/
theorem hostReduce_min_single {s t u : Shape} {a : Fin s.rank} (x : FVec Ideal s .f32) (init : u.Idx → Ideal .f32)
    (h' : s.ReducesTo [a] t) (h : s.Reduces [a] t) (hu : 0 < u.numel)
    (hinit : init (Shape.Idx.first hu) = FloatOps.ofBits (F := Ideal) .f32 0x7F800000#32) (j : t.Idx) :
    Host.reduce FloatOps.minimumf x init h' hu j = Finset.univ.inf fun k : Fin (s.size a) => x (h.lift j k) := by
  rw [Host.reduce_eq_fold_single FloatOps.minimumf x init h' h hu j, hinit]
  exact fold_minimumf_eq_inf _ _

end Cert.Chamfer

end
-- ==== Proof.TileValue.lean ====
/-
  The tile of squared distances and its two lane minima, read at an index.

  The body loads a tile of 512 points of the first cloud (x0) and one of the second (x1), each as [1, 3, 512]: the
  coordinate d of point p at (0, d, p).  Entry (0, a, b) of the [1, 512, 512] tile is the squared distance between
  point b of the first tile and point a of the second: for each coordinate the second tile's row spread along the
  columns, the first tile's row spread along the rows, their difference squared, the three squares added in order.
  The minimum over the rows a (from +inf) is, at lane b, the infimum over the second tile's points; the minimum over
  the columns b, turned into a row, is at lane a the infimum over the first tile's points.
-/
import proofs.«101443_j43800076484722_2_alg».proof.Proof.Gen.KernelIdeal.Skeleton
import proofs.«101443_j43800076484722_2_alg».proof.Proof.Chamfer
import proofs.«101443_j43800076484722_2_alg».proof.Proof.MinFold
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen Cert.Chamfer

/-- Coordinate d of the tile's points spread along the columns: entry (0, a, b) is point a's coordinate. -/
theorem spread_rows {α : Type} (v : S1x3x512.Idx → α) (d : Fin 3) (off : Fin 3 → Nat) (hoff : off = ![0, d.val, 0])
    (hsl : S1x3x512.Slices off S1x1x512) (a b : Fin 512) :
    broadcastTo S1x512x512 (shapeCast S1x512x1 (shapeCast S1x512 (extractStridedSlice S1x1x512 off
      (shapeCast S1x3x512 v shapeCasts_S1x3x512_S1x3x512) hsl) shapeCasts_S1x1x512_S1x512) shapeCasts_S1x512_S1x512x1)
      broadcasts_S1x512x1_S1x512x512 (ix3 0 a b) = v (ix3 0 d a) := by
  subst hoff
  refine (broadcastTo_apply _ _ (ix3 0 a b) (ix3 0 a 0) (fun c => ?_)).trans ?_
  · match c with
    | ⟨0, _⟩ => rfl
    | ⟨1, _⟩ => rfl
    | ⟨2, _⟩ => rfl
  refine (shapeCast_apply _ _ (ix3 0 a 0) (ix2 0 a) ?_).trans ?_
  · rw [Shape.rowMajor_val_two, Shape.rowMajor_val_three]
    show (0 : ℕ) * 512 + a.val = ((0 : ℕ) * 512 + a.val) * 1 + 0
    omega
  refine (shapeCast_apply _ _ (ix2 0 a) (ix3 0 0 a) ?_).trans ?_
  · rw [Shape.rowMajor_val_two, Shape.rowMajor_val_three]
    show ((0 : ℕ) * 1 + 0) * 512 + a.val = (0 : ℕ) * 512 + a.val
    omega
  refine (extractStridedSlice_apply _ _ _ (ix3 0 0 a) (ix3 0 d a) (fun c => ?_)).trans ?_
  · match c with
    | ⟨0, _⟩ => rfl
    | ⟨1, _⟩ => show d.val = d.val + 0; omega
    | ⟨2, _⟩ => show a.val = 0 + a.val; omega
  rw [shapeCast_self]

/-- Coordinate d of the tile's points spread along the rows: entry (0, a, b) is point b's coordinate. -/
theorem spread_cols {α : Type} (v : S1x3x512.Idx → α) (d : Fin 3) (off : Fin 3 → Nat) (hoff : off = ![0, d.val, 0])
    (hsl : S1x3x512.Slices off S1x1x512) (a b : Fin 512) :
    broadcastTo S1x512x512 (shapeCast S1x1x512 (shapeCast S1x512 (extractStridedSlice S1x1x512 off
      (shapeCast S1x3x512 v shapeCasts_S1x3x512_S1x3x512) hsl) shapeCasts_S1x1x512_S1x512) shapeCasts_S1x512_S1x1x512)
      broadcasts_S1x1x512_S1x512x512 (ix3 0 a b) = v (ix3 0 d b) := by
  subst hoff
  refine (broadcastTo_apply _ _ (ix3 0 a b) (ix3 0 0 b) (fun c => ?_)).trans ?_
  · match c with
    | ⟨0, _⟩ => rfl
    | ⟨1, _⟩ => rfl
    | ⟨2, _⟩ => rfl
  refine (shapeCast_apply _ _ (ix3 0 0 b) (ix2 0 b) ?_).trans ?_
  · rw [Shape.rowMajor_val_two, Shape.rowMajor_val_three]
    show (0 : ℕ) * 512 + b.val = ((0 : ℕ) * 1 + 0) * 512 + b.val
    omega
  refine (shapeCast_apply _ _ (ix2 0 b) (ix3 0 0 b) ?_).trans ?_
  · rw [Shape.rowMajor_val_two, Shape.rowMajor_val_three]
    show ((0 : ℕ) * 1 + 0) * 512 + b.val = (0 : ℕ) * 512 + b.val
    omega
  refine (extractStridedSlice_apply _ _ _ (ix3 0 0 b) (ix3 0 d b) (fun c => ?_)).trans ?_
  · match c with
    | ⟨0, _⟩ => rfl
    | ⟨1, _⟩ => show d.val = d.val + 0; omega
    | ⟨2, _⟩ => show b.val = 0 + b.val; omega
  rw [shapeCast_self]

/-- The points of a loaded tile: point p's three coordinates. -/
def tpt (v : FVec Ideal S1x3x512 .f32) (p : Fin 512) : Fin 3 → EReal := fun d => v (ix3 0 d p)

/-- The tile of squared distances at (0, a, b): between point b of the first tile and point a of the second. -/
theorem pay4_apply (x0 x1 : FVec Ideal S1x3x512 .f32) (a b : Fin 512) :
    k0_pay4 (F := Ideal) x0 x1 (ix3 0 a b) = sq3 (tpt x0 b) (tpt x1 a) := by
  unfold k0_pay4 sq3 tpt
  simp only [addf_apply, mulf_apply, subf_apply]
  rw [spread_rows x1 0 ![0, 0, 0] rfl slices_S1x3x512_o0_0_0_S1x1x512 a b,
    spread_rows x1 1 ![0, 1, 0] rfl slices_S1x3x512_o0_1_0_S1x1x512 a b,
    spread_rows x1 2 ![0, 2, 0] rfl slices_S1x3x512_o0_2_0_S1x1x512 a b,
    spread_cols x0 0 ![0, 0, 0] rfl slices_S1x3x512_o0_0_0_S1x1x512 a b,
    spread_cols x0 1 ![0, 1, 0] rfl slices_S1x3x512_o0_1_0_S1x1x512 a b,
    spread_cols x0 2 ![0, 2, 0] rfl slices_S1x3x512_o0_2_0_S1x1x512 a b]

/-- The row minima: at lane b, the least distance from point b of the first tile to the second tile's points. -/
theorem pay5_apply (x0 x1 : FVec Ideal S1x3x512 .f32) (b : Fin 512) :
    k0_pay5 (F := Ideal) x0 x1 (ix3 0 0 b) = Finset.univ.inf fun a : Fin 512 => sq3 (tpt x0 b) (tpt x1 a) := by
  unfold k0_pay5
  refine (shapeCast_apply _ _ (ix3 0 0 b) (ix2 0 b) ?_).trans ?_
  · rw [Shape.rowMajor_val_two, Shape.rowMajor_val_three]
    show (0 : ℕ) * 512 + b.val = ((0 : ℕ) * 1 + 0) * 512 + b.val
    omega
  refine (multiReduction_min_single (k0_pay4 (F := Ideal) x0 x1) reduces_S1x512x512_S1x512 (.inl rfl) rfl (ix2 0 b)).trans ?_
  refine Finset.inf_congr rfl fun a _ => ?_
  refine (congrArg (k0_pay4 (F := Ideal) x0 x1) ?_).trans (pay4_apply x0 x1 a b)
  funext d
  apply Fin.ext
  match d with
  | ⟨0, _⟩ => rfl
  | ⟨1, _⟩ => rfl
  | ⟨2, _⟩ => rfl

/-- The column minima as a row: at lane a, the least distance to point a of the second tile from the first tile's points. -/
theorem pay6_apply (x0 x1 : FVec Ideal S1x3x512 .f32) (a : Fin 512) :
    k0_pay6 (F := Ideal) x0 x1 (ix3 0 0 a) = Finset.univ.inf fun b : Fin 512 => sq3 (tpt x0 b) (tpt x1 a) := by
  unfold k0_pay6
  refine (transpose_apply _ _ _ (ix3 0 0 a) (ix3 0 a 0) (fun d => ?_)).trans ?_
  · match d with
    | ⟨0, _⟩ => rfl
    | ⟨1, _⟩ => rfl
    | ⟨2, _⟩ => rfl
  refine (shapeCast_apply _ _ (ix3 0 a 0) (ix2 0 a) ?_).trans ?_
  · rw [Shape.rowMajor_val_two, Shape.rowMajor_val_three]
    show (0 : ℕ) * 512 + a.val = ((0 : ℕ) * 512 + a.val) * 1 + 0
    omega
  refine (multiReduction_min_single (k0_pay4 (F := Ideal) x0 x1) reduces_S1x512x512_S1x512_2 (.inl rfl) rfl (ix2 0 a)).trans ?_
  refine Finset.inf_congr rfl fun b _ => ?_
  refine (congrArg (k0_pay4 (F := Ideal) x0 x1) ?_).trans (pay4_apply x0 x1 a b)
  funext d
  apply Fin.ext
  match d with
  | ⟨0, _⟩ => rfl
  | ⟨1, _⟩ => rfl
  | ⟨2, _⟩ => rfl

/-- The first running minimum's update, lane by lane. -/
theorem pay1_apply (v : FVec Ideal S1x1x512 .f32) (old : FVec Ideal S1x1x512 .f32) (y : S1x1x512.Idx) :
    k0_pay1 (F := Ideal) v old y = min (old y) (v y) := by
  unfold k0_pay1
  rw [shapeCast_self]
  rfl

/-- The second running minimum's update on the current lanes, lane by lane. -/
theorem pay3_apply (v : FVec Ideal S1x1x512 .f32) (old : FVec Ideal S1x1x512 .f32) (y : S1x1x512.Idx) :
    k0_pay3 (F := Ideal) v old y = min (old y) (v y) := by
  unfold k0_pay3
  rw [shapeCast_self]
  rfl

/-- The reset value of the first running minimum: +inf on every lane. -/
theorem pay7_apply (y : S1x1x512.Idx) : k0_pay7 (F := Ideal) y = (⊤ : EReal) := by
  unfold k0_pay7
  rw [shapeCast_self]
  exact ofBits_inf

/-- The reset value of the second running minimum: +inf on every lane. -/
theorem pay2_apply (y : S1x1x8192.Idx) : k0_pay2 (F := Ideal) y = (⊤ : EReal) := by
  unfold k0_pay2
  rw [shapeCast_self]
  exact ofBits_inf

end Cert.KernelIdeal.TileValue

end
-- ==== Proof.Clouds.lean ====
/-
  The two clouds as the program holds them, and where a step of the sweep sits.

  X1 and X2 are the two argument arrays, [4, 8192, 3] extended reals each.  The grid has 4 · 16 · 16 steps in row-major
  order: step t works on batch entry t / 256, on tile (t / 16) % 16 of the first cloud and on tile t % 16 of the second.
  The tile a step loads from the first cloud holds, at (0, d, l), coordinate d of point l of that tile; likewise for the
  second cloud: the arrays reach the region transposed to [4, 3, 8192], and block (b, 0, i) of 1 × 3 × 512 entries of
  the transposed array holds the points 512 i … 512 i + 511.
-/
import proofs.«101443_j43800076484722_2_alg».proof.Proof.Gen.KernelIdeal.Frame
import proofs.«101443_j43800076484722_2_alg».proof.Proof.TileValue
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.TileValue

variable (m : (ℓ : Loc nD τ sig) → Buf (Elt Ideal) ℓ)

/-- The first cloud. -/
abbrev X1 (c : Dev nD) : Pts := m ((c : Thread nD τ).loc main_arg0)
/-- The second cloud. -/
abbrev X2 (c : Dev nD) : Pts := m ((c : Thread nD τ).loc main_arg1)

/-- The tile of the first cloud a step loads. -/
abbrev blk0 (c : Dev nD) (t : Fin cfg0.N) : Vec Ideal S1x3x512 .f32 := iblk m c 0 t
/-- The tile of the second cloud a step loads. -/
abbrev blk1 (c : Dev nD) (t : Fin cfg0.N) : Vec Ideal S1x3x512 .f32 := iblk m c 1 t

theorem N_eq : cfg0.N = 1024 := N_0

/-- A step's batch entry. -/
def bOf (t : Fin cfg0.N) : Fin 4 := ⟨t.val / 256, by have h : t.val < 1024 := lt_of_lt_of_eq t.isLt N_eq; omega⟩

theorem bOf_val (t : Fin cfg0.N) : (bOf t).val = t.val / 256 := rfl

/-- Where the windows' blocks sit at a step, and the step's column tile as the body computes it. -/
theorem idx_facts : ∀ t : Fin cfg0.N,
    win0_0.index t (0 : Fin 3) = t.val / 256 ∧ win0_0.index t (1 : Fin 3) = 0 ∧ win0_0.index t (2 : Fin 3) = t.val / 16 % 16
    ∧ win0_1.index t (0 : Fin 3) = t.val / 256 ∧ win0_1.index t (1 : Fin 3) = 0 ∧ win0_1.index t (2 : Fin 3) = t.val % 16
    ∧ win0_2.index t (0 : Fin 3) = t.val / 256 ∧ win0_2.index t (1 : Fin 3) = 0 ∧ win0_2.index t (2 : Fin 3) = t.val / 16 % 16
    ∧ win0_3.index t (0 : Fin 3) = t.val / 256 ∧ win0_3.index t (1 : Fin 3) = 0 ∧ win0_3.index t (2 : Fin 3) = 0
    ∧ ((grid0.coords t) (2 : Fin 3)).val = t.val % 16 :=
  (by decide +kernel : ∀ t : Fin grid0.N, _)

end Cert.KernelIdeal.Sweep

end
-- ==== Proof.Pieces.lean ====
/-
  What one step of the sweep leaves in the two running minima and in the two result blocks, as values.

  A step loads a tile x0 of the first cloud and a tile x1 of the second, and holds two running minima: one per point of
  the current tile of the first cloud (512 lanes; xs0 before the step), one per point of the whole second cloud (8192
  lanes; xs1 before the step).  The first is replaced by the lane-wise minimum of itself and the tile's row minima,
  after being reset to +inf on the first tile of the second cloud; the second is updated only on the 512 lanes of the
  current tile of the second cloud (lanes 512 j … 512 j + 511 at column tile j), by the minimum with the tile's
  column minima, after being reset to +inf on the very first step of a batch entry.  On the last tile of the second
  cloud the first running minimum is copied into the first result block, and on the last step of a batch entry the
  second into the second result block.  Five kinds of step arise: A (first step of a batch entry), D (first tile of the
  second cloud, later tile of the first), B (inside), C (last tile of the second cloud), E (last step).
-/
import proofs.«101443_j43800076484722_2_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords) (arg3 : Memref sig .tc .vmem S1x3x512 .f32) (harg3 : arg3.IsWhole) (arg4 : Memref sig .tc .vmem S1x3x512 .f32) (harg4 : arg4.IsWhole) (arg5 : Memref sig .tc .vmem S1x1x512 .f32) (harg5 : arg5.IsWhole) (arg6 : Memref sig .tc .vmem S1x1x8192 .f32) (harg6 : arg6.IsWhole) (arg7 : Memref sig .tc .vmem S1x1x512 .f32) (harg7 : arg7.IsWhole) (arg8 : Memref sig .tc .vmem S1x1x8192 .f32) (harg8 : arg8.IsWhole)
    (x0 : Vec F S1x3x512 .f32) (x1 : Vec F S1x3x512 .f32) (xs0 : Vec F S1x1x512 .f32) (xs1 : Vec F S1x1x8192 .f32)

theorem hz3 : (![0, 0, 0] : Fin 3 → Nat) = fun _ => 0 := funext fun a => by fin_cases a <;> rfl

/-- The first running minimum after a step that starts from xs0. -/
abbrev run1 (x0 x1 : Vec F S1x3x512 .f32) (xs0 : Vec F S1x1x512 .f32) : Vec F S1x1x512 .f32 := k0_pay1 (k0_pay5 x0 x1) xs0

/-- The lanes of the second running minimum that a step at column tile (i 2) updates, from the values v they held. -/
abbrev run2 (x0 x1 : Vec F S1x3x512 .f32) (v : Vec F S1x1x512 .f32) : Vec F S1x1x512 .f32 := k0_pay3 (k0_pay6 x0 x1) v

/-! ## An inside step (B) -/
section B
variable (hc0 : ¬cond0_0 i) (hc1 : ¬cond0_1 i) (hc2 : ¬cond0_2 i) (hc3 : ¬cond0_3 i)

theorem sB0 : sout0_B_0 c i arg3 harg3 arg4 harg4 arg5 harg5 arg6 harg6 arg7 harg7 arg8 harg8 hc0 hc1 hc2 hc3 x0 x1 xs0 xs1
    = run1 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz3]
  simp only [View.readAt_eq_ld, harg3.read_unread, harg4.read_unread, harg7.read_unread, View.ld_unit_zero (S := S1x3x512) hz3,
    View.ld_unit_zero (S := S1x1x512) hz3]

/-- On the lanes of the current column tile: the minimum with the tile's column minima. -/
theorem sB1_in (y : S1x1x8192.Idx) (x : S1x1x512.Idx) (hx : ∀ a, (y a).val = (![0, 0, 512 * (i 2).val] : Fin 3 → ℕ) a + (x a).val) :
    sout0_B_1 c i arg3 harg3 arg4 harg4 arg5 harg5 arg6 harg6 arg7 harg7 arg8 harg8 hc0 hc1 hc2 hc3 x0 x1 xs0 xs1 y
      = run2 x0 x1 (View.ld xs1 (Rect.unit (k0_off1 i) S1x1x512.size (k0_off1_inb i))) x := by
  unfold sout0_B_1
  unfold kernelRun0_B
  dsimp only
  sl_unfold_words
  refine (View.read_writes_cons_unit_of_mem arg8.view (harg8.unread xs1) (k0_off1_inb i) _ [] y x (k0_off1_eq i) hx).trans ?_
  simp only [View.readAt_eq_ld, harg3.read_unread, harg4.read_unread, harg8.read_unread, View.ld_unit_zero (S := S1x3x512) hz3]

/-- Elsewhere: unchanged. -/
theorem sB1_out (y : S1x1x8192.Idx) (hy : (y 2).val < 512 * (i 2).val ∨ 512 * (i 2).val + 512 ≤ (y 2).val) :
    sout0_B_1 c i arg3 harg3 arg4 harg4 arg5 harg5 arg6 harg6 arg7 harg7 arg8 harg8 hc0 hc1 hc2 hc3 x0 x1 xs0 xs1 y = xs1 y := by
  unfold sout0_B_1
  unfold kernelRun0_B
  dsimp only
  sl_unfold_words
  refine (View.read_writes_cons_unit_of_not_mem arg8.view (harg8.unread xs1) (k0_off1_inb i) _ [] y (k0_off1_eq i) 2 hy).trans ?_
  rw [View.writes_nil, harg8.read_unread]

end B

/-! ## A step on the last tile of the second cloud (C) -/
section C
variable (hc0 : ¬cond0_0 i) (hc1 : cond0_1 i) (hc2 : ¬cond0_2 i) (hc3 : ¬cond0_3 i)

theorem sC0 : sout0_C_0 c i arg3 harg3 arg4 harg4 arg5 harg5 arg6 harg6 arg7 harg7 arg8 harg8 hc0 hc1 hc2 hc3 x0 x1 xs0 xs1
    = run1 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3]
  simp only [View.readAt_eq_ld, harg3.read_unread, harg4.read_unread, harg7.read_unread, View.ld_unit_zero (S := S1x3x512) hz3,
    View.ld_unit_zero (S := S1x1x512) hz3]

/-- The first result block receives the first running minimum as the step leaves it. -/
theorem oC2 : out0_C_2 c i arg3 harg3 arg4 harg4 arg5 harg5 arg6 harg6 arg7 harg7 arg8 harg8 hc0 hc1 hc2 hc3 x0 x1 xs0 xs1
    = run1 x0 x1 xs0 := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero (S := S1x1x512) _ hz3]
  simp only [View.readAt_eq_ld, harg3.read_unread, harg4.read_unread, harg7.read_unread, View.ld_unit_zero (S := S1x3x512) hz3,
    View.ld_unit_zero (S := S1x1x512) hz3]

theorem sC1_in (y : S1x1x8192.Idx) (x : S1x1x512.Idx) (hx : ∀ a, (y a).val = (![0, 0, 512 * (i 2).val] : Fin 3 → ℕ) a + (x a).val) :
    sout0_C_1 c i arg3 harg3 arg4 harg4 arg5 harg5 arg6 harg6 arg7 harg7 arg8 harg8 hc0 hc1 hc2 hc3 x0 x1 xs0 xs1 y
      = run2 x0 x1 (View.ld xs1 (Rect.unit (k0_off1 i) S1x1x512.size (k0_off1_inb i))) x := by
  unfold sout0_C_1
  unfold kernelRun0_C
  dsimp only
  sl_unfold_words
  refine (View.read_writes_cons_unit_of_mem arg8.view (harg8.unread xs1) (k0_off1_inb i) _ [] y x (k0_off1_eq i) hx).trans ?_
  simp only [View.readAt_eq_ld, harg3.read_unread, harg4.read_unread, harg8.read_unread, View.ld_unit_zero (S := S1x3x512) hz3]

theorem sC1_out (y : S1x1x8192.Idx) (hy : (y 2).val < 512 * (i 2).val ∨ 512 * (i 2).val + 512 ≤ (y 2).val) :
    sout0_C_1 c i arg3 harg3 arg4 harg4 arg5 harg5 arg6 harg6 arg7 harg7 arg8 harg8 hc0 hc1 hc2 hc3 x0 x1 xs0 xs1 y = xs1 y := by
  unfold sout0_C_1
  unfold kernelRun0_C
  dsimp only
  sl_unfold_words
  refine (View.read_writes_cons_unit_of_not_mem arg8.view (harg8.unread xs1) (k0_off1_inb i) _ [] y (k0_off1_eq i) 2 hy).trans ?_
  rw [View.writes_nil, harg8.read_unread]

end C

/-! ## A step on the first tile of the second cloud, a later tile of the first (D) -/
section D
variable (hc0 : cond0_0 i) (hc1 : ¬cond0_1 i) (hc2 : ¬cond0_2 i) (hc3 : ¬cond0_3 i)

/-- The first running minimum restarts from +inf. -/
theorem sD0 : sout0_D_0 c i arg3 harg3 arg4 harg4 arg5 harg5 arg6 harg6 arg7 harg7 arg8 harg8 hc0 hc1 hc2 hc3 x0 x1 xs1
    = run1 x0 x1 (k0_pay7 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x1x512) hz3, View.readCov_unit_zero (S := S1x1x512) _ hz3]
  simp only [View.readAt_eq_ld, harg3.read_unread, harg4.read_unread, View.ld_unit_zero (S := S1x3x512) hz3]

theorem sD1_in (y : S1x1x8192.Idx) (x : S1x1x512.Idx) (hx : ∀ a, (y a).val = (![0, 0, 512 * (i 2).val] : Fin 3 → ℕ) a + (x a).val) :
    sout0_D_1 c i arg3 harg3 arg4 harg4 arg5 harg5 arg6 harg6 arg7 harg7 arg8 harg8 hc0 hc1 hc2 hc3 x0 x1 xs1 y
      = run2 x0 x1 (View.ld xs1 (Rect.unit (k0_off1 i) S1x1x512.size (k0_off1_inb i))) x := by
  unfold sout0_D_1
  unfold kernelRun0_D
  dsimp only
  sl_unfold_words
  refine (View.read_writes_cons_unit_of_mem arg8.view (harg8.unread xs1) (k0_off1_inb i) _ [] y x (k0_off1_eq i) hx).trans ?_
  simp only [View.readAt_eq_ld, harg3.read_unread, harg4.read_unread, harg8.read_unread, View.ld_unit_zero (S := S1x3x512) hz3]

theorem sD1_out (y : S1x1x8192.Idx) (hy : (y 2).val < 512 * (i 2).val ∨ 512 * (i 2).val + 512 ≤ (y 2).val) :
    sout0_D_1 c i arg3 harg3 arg4 harg4 arg5 harg5 arg6 harg6 arg7 harg7 arg8 harg8 hc0 hc1 hc2 hc3 x0 x1 xs1 y = xs1 y := by
  unfold sout0_D_1
  unfold kernelRun0_D
  dsimp only
  sl_unfold_words
  refine (View.read_writes_cons_unit_of_not_mem arg8.view (harg8.unread xs1) (k0_off1_inb i) _ [] y (k0_off1_eq i) 2 hy).trans ?_
  rw [View.writes_nil, harg8.read_unread]

end D

/-! ## The last step of a batch entry (E) -/
section E
variable (hc0 : ¬cond0_0 i) (hc1 : cond0_1 i) (hc2 : ¬cond0_2 i) (hc3 : cond0_3 i)

theorem sE0 : sout0_E_0 c i arg3 harg3 arg4 harg4 arg5 harg5 arg6 harg6 arg7 harg7 arg8 harg8 hc0 hc1 hc2 hc3 x0 x1 xs0 xs1
    = run1 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, harg3.read_unread, harg4.read_unread, harg7.read_unread, View.ld_unit_zero (S := S1x3x512) hz3,
    View.ld_unit_zero (S := S1x1x512) hz3]

theorem oE2 : out0_E_2 c i arg3 harg3 arg4 harg4 arg5 harg5 arg6 harg6 arg7 harg7 arg8 harg8 hc0 hc1 hc2 hc3 x0 x1 xs0 xs1
    = run1 x0 x1 xs0 := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero (S := S1x1x512) _ hz3]
  simp only [View.readAt_eq_ld, harg3.read_unread, harg4.read_unread, harg7.read_unread, View.ld_unit_zero (S := S1x3x512) hz3,
    View.ld_unit_zero (S := S1x1x512) hz3]

/-- The second result block receives the second running minimum as the step leaves it. -/
theorem oE3 : out0_E_3 c i arg3 harg3 arg4 harg4 arg5 harg5 arg6 harg6 arg7 harg7 arg8 harg8 hc0 hc1 hc2 hc3 x0 x1 xs0 xs1
    = sout0_E_1 c i arg3 harg3 arg4 harg4 arg5 harg5 arg6 harg6 arg7 harg7 arg8 harg8 hc0 hc1 hc2 hc3 x0 x1 xs0 xs1 := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, View.ld_unit_zero (S := S1x1x8192) hz3]

theorem sE1_in (y : S1x1x8192.Idx) (x : S1x1x512.Idx) (hx : ∀ a, (y a).val = (![0, 0, 512 * (i 2).val] : Fin 3 → ℕ) a + (x a).val) :
    sout0_E_1 c i arg3 harg3 arg4 harg4 arg5 harg5 arg6 harg6 arg7 harg7 arg8 harg8 hc0 hc1 hc2 hc3 x0 x1 xs0 xs1 y
      = run2 x0 x1 (View.ld xs1 (Rect.unit (k0_off1 i) S1x1x512.size (k0_off1_inb i))) x := by
  unfold sout0_E_1
  unfold kernelRun0_E
  dsimp only
  sl_unfold_words
  refine (View.read_writes_cons_unit_of_mem arg8.view (harg8.unread xs1) (k0_off1_inb i) _ [] y x (k0_off1_eq i) hx).trans ?_
  simp only [View.readAt_eq_ld, harg3.read_unread, harg4.read_unread, harg8.read_unread, View.ld_unit_zero (S := S1x3x512) hz3]

theorem sE1_out (y : S1x1x8192.Idx) (hy : (y 2).val < 512 * (i 2).val ∨ 512 * (i 2).val + 512 ≤ (y 2).val) :
    sout0_E_1 c i arg3 harg3 arg4 harg4 arg5 harg5 arg6 harg6 arg7 harg7 arg8 harg8 hc0 hc1 hc2 hc3 x0 x1 xs0 xs1 y = xs1 y := by
  unfold sout0_E_1
  unfold kernelRun0_E
  dsimp only
  sl_unfold_words
  refine (View.read_writes_cons_unit_of_not_mem arg8.view (harg8.unread xs1) (k0_off1_inb i) _ [] y (k0_off1_eq i) 2 hy).trans ?_
  rw [View.writes_nil, harg8.read_unread]

end E

/-! ## The first step of a batch entry (A) -/
section A
variable (hc0 : cond0_0 i) (hc1 : ¬cond0_1 i) (hc2 : cond0_2 i) (hc3 : ¬cond0_3 i)

theorem sA0 : sout0_A_0 c i arg3 harg3 arg4 harg4 arg5 harg5 arg6 harg6 arg7 harg7 arg8 harg8 hc0 hc1 hc2 hc3 x0 x1
    = run1 x0 x1 (k0_pay7 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1x1x512) hz3, View.readCov_unit_zero (S := S1x1x512) _ hz3]
  simp only [View.readAt_eq_ld, harg3.read_unread, harg4.read_unread, View.ld_unit_zero (S := S1x3x512) hz3]

/-- The second running minimum restarts from +inf: on the lanes of the first column tile the minimum of +inf with the
    tile's column minima. -/
theorem sA1_in (y : S1x1x8192.Idx) (x : S1x1x512.Idx) (hx : ∀ a, (y a).val = (![0, 0, 512 * (i 2).val] : Fin 3 → ℕ) a + (x a).val) :
    sout0_A_1 c i arg3 harg3 arg4 harg4 arg5 harg5 arg6 harg6 arg7 harg7 arg8 harg8 hc0 hc1 hc2 hc3 x0 x1 y
      = run2 x0 x1 (View.ld (k0_pay2 (F := F)) (Rect.unit (s := S1x1x8192) (k0_off1 i) S1x1x512.size (k0_off1_inb i))) x := by
  unfold sout0_A_1
  unfold kernelRun0_A
  dsimp only
  sl_unfold_words
  refine (View.read_writes_cons_unit_of_mem VS0_1 VS0_1.junk (k0_off1_inb i) _ _ y x (k0_off1_eq i) hx).trans ?_
  have e : View.read (Elt F) arg8.view (arg8.view.writes (Elt F) arg8.view.junk
      [⟨Rect.unit ![0, 0, 0] ![1, 1, 8192] inb_S1x1x8192_S1x1x8192_0_0_0, k0_pay2 (F := F)⟩]) = k0_pay2 (F := F) :=
    funext fun y' => View.read_writes_cons_unit_of_mem arg8.view arg8.view.junk inb_S1x1x8192_S1x1x8192_0_0_0 _ [] y' y' rfl (fun a => by
      match a with
      | ⟨0, _⟩ => exact (Nat.zero_add _).symm
      | ⟨1, _⟩ => exact (Nat.zero_add _).symm
      | ⟨2, _⟩ => exact (Nat.zero_add _).symm)
  simp only [View.readAt_eq_ld, harg3.read_unread, harg4.read_unread, View.ld_unit_zero (S := S1x3x512) hz3, e]

/-- Elsewhere +inf. -/
theorem sA1_out (y : S1x1x8192.Idx) (hy : (y 2).val < 512 * (i 2).val ∨ 512 * (i 2).val + 512 ≤ (y 2).val) :
    sout0_A_1 c i arg3 harg3 arg4 harg4 arg5 harg5 arg6 harg6 arg7 harg7 arg8 harg8 hc0 hc1 hc2 hc3 x0 x1 y = k0_pay2 (F := F) y := by
  unfold sout0_A_1
  unfold kernelRun0_A
  dsimp only
  sl_unfold_words
  refine (View.read_writes_cons_unit_of_not_mem VS0_1 VS0_1.junk (k0_off1_inb i) _ _ y (k0_off1_eq i) 2 hy).trans ?_
  exact View.read_writes_cons_unit_of_mem VS0_1 VS0_1.junk inb_S1x1x8192_S1x1x8192_0_0_0 _ [] y y rfl (fun a => by
    match a with
    | ⟨0, _⟩ => exact (Nat.zero_add _).symm
    | ⟨1, _⟩ => exact (Nat.zero_add _).symm
    | ⟨2, _⟩ => exact (Nat.zero_add _).symm)

end A

end Cert.KernelIdeal.Pieces

end
-- ==== Proof.Steps.lean ====
/-
  One step of the sweep, uniformly over the five kinds of step.

  Write S0 t and S1 t for the two running minima after step t, and P0 t, P1 t for what the step starts from: +inf on
  every lane when the step resets the minimum (t % 16 = 0 for the first, t % 256 = 0 for the second), else what the step
  before left.  Then, whatever the kind of step: S0 t is the lane-wise minimum of P0 t with the row minima of the step's
  tile; S1 t is, on the 512 lanes of the step's column tile, the minimum of P1 t with the tile's column minima, and
  P1 t on the other lanes; on the last tile of the second cloud the first result block is S0 t, and at the last step of
  a batch entry the second result block is S1 t.
-/
import proofs.«101443_j43800076484722_2_alg».proof.Proof.Clouds
import proofs.«101443_j43800076484722_2_alg».proof.Proof.Pieces

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.TileValue Cert.KernelIdeal.Pieces

variable (m : (ℓ : Loc nD τ sig) → Buf (Elt Ideal) ℓ)

/-- The first running minimum after step t. -/
abbrev S0 (c : Dev nD) (t : Fin cfg0.N) : Vec Ideal S1x1x512 .f32 := (outsAt0 m c t.val t.isLt).2.2.1
/-- The second running minimum after step t. -/
abbrev S1 (c : Dev nD) (t : Fin cfg0.N) : Vec Ideal S1x1x8192 .f32 := (outsAt0 m c t.val t.isLt).2.2.2
/-- The first result block after step t. -/
abbrev O2 (c : Dev nD) (t : Fin cfg0.N) : Vec Ideal S1x1x512 .f32 := (outsAt0 m c t.val t.isLt).1
/-- The second result block after step t. -/
abbrev O3 (c : Dev nD) (t : Fin cfg0.N) : Vec Ideal S1x1x8192 .f32 := (outsAt0 m c t.val t.isLt).2.1

/-- What step t's first running minimum starts from. -/
def P0 (c : Dev nD) (t : Fin cfg0.N) : Vec Ideal S1x1x512 .f32 :=
  if t.val % 16 = 0 then k0_pay7 (F := Ideal) else (outsAt0 m c (t.val - 1) (Nat.lt_of_le_of_lt (Nat.sub_le _ _) t.isLt)).2.2.1
/-- What step t's second running minimum starts from. -/
def P1 (c : Dev nD) (t : Fin cfg0.N) : Vec Ideal S1x1x8192 .f32 :=
  if t.val % 256 = 0 then k0_pay2 (F := Ideal) else (outsAt0 m c (t.val - 1) (Nat.lt_of_le_of_lt (Nat.sub_le _ _) t.isLt)).2.2.2

/-- The 512 lanes a step updates in the second running minimum, read out of a vector of 8192 lanes. -/
abbrev lanes (t : Fin cfg0.N) (P : Vec Ideal S1x1x8192 .f32) : Vec Ideal S1x1x512 .f32 :=
  View.ld P (Rect.unit (s := S1x1x8192) (k0_off1 (grid0.coords t)) S1x1x512.size (k0_off1_inb (grid0.coords t)))

theorem step0 (c : Dev nD) (t : Fin cfg0.N) : S0 m c t = run1 (blk0 m c t) (blk1 m c t) (P0 m c t) := by
  have hN : t.val < 1024 := lt_of_lt_of_eq t.isLt N_eq
  show (outsAt0 m c t.val t.isLt).2.2.1 = _
  by_cases h0 : t.val % 16 = 0
  · have h1 : ¬t.val % 16 = 15 := by omega
    have h3 : ¬t.val % 256 = 255 := by omega
    have hP : P0 m c t = k0_pay7 (F := Ideal) := if_pos h0
    rw [hP]
    by_cases h2 : t.val % 256 = 0
    · rw [outsAt0_A m c t h0 h1 h2 h3]
      dsimp only
      exact sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) _ _ _ _
    · rw [outsAt0_D m c t h0 h1 h2 h3]
      dsimp only
      exact sD0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.2 _ _ _ _
  · have h2 : ¬t.val % 256 = 0 := by omega
    have hP : P0 m c t = (outsAt0 m c (t.val - 1) (Nat.lt_of_le_of_lt (Nat.sub_le _ _) t.isLt)).2.2.1 := if_neg h0
    rw [hP]
    by_cases h1 : t.val % 16 = 15
    · by_cases h3 : t.val % 256 = 255
      · rw [outsAt0_E m c t h0 h1 h2 h3]
        dsimp only
        exact sE0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _
      · rw [outsAt0_C m c t h0 h1 h2 h3]
        dsimp only
        exact sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _
    · have h3 : ¬t.val % 256 = 255 := by omega
      rw [outsAt0_B m c t h0 h1 h2 h3]
      dsimp only
      exact sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _

theorem step1_in (c : Dev nD) (t : Fin cfg0.N) (y : S1x1x8192.Idx) (x : S1x1x512.Idx)
    (hx : ∀ a, (y a).val = (![0, 0, 512 * ((grid0.coords t) 2).val] : Fin 3 → ℕ) a + (x a).val) :
    S1 m c t y = run2 (blk0 m c t) (blk1 m c t) (lanes t (P1 m c t)) x := by
  have hN : t.val < 1024 := lt_of_lt_of_eq t.isLt N_eq
  show (outsAt0 m c t.val t.isLt).2.2.2 y = _
  by_cases h0 : t.val % 16 = 0
  · have h1 : ¬t.val % 16 = 15 := by omega
    have h3 : ¬t.val % 256 = 255 := by omega
    by_cases h2 : t.val % 256 = 0
    · have hP : P1 m c t = k0_pay2 (F := Ideal) := if_pos h2
      rw [hP, outsAt0_A m c t h0 h1 h2 h3]
      dsimp only
      exact sA1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) _ _ _ _ y x hx
    · have hP : P1 m c t = (outsAt0 m c (t.val - 1) (Nat.lt_of_le_of_lt (Nat.sub_le _ _) t.isLt)).2.2.2 := if_neg h2
      rw [hP, outsAt0_D m c t h0 h1 h2 h3]
      dsimp only
      exact sD1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.2 _ _ _ _ y x hx
  · have h2 : ¬t.val % 256 = 0 := by omega
    have hP : P1 m c t = (outsAt0 m c (t.val - 1) (Nat.lt_of_le_of_lt (Nat.sub_le _ _) t.isLt)).2.2.2 := if_neg h2
    rw [hP]
    by_cases h1 : t.val % 16 = 15
    · by_cases h3 : t.val % 256 = 255
      · rw [outsAt0_E m c t h0 h1 h2 h3]
        dsimp only
        exact sE1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y x hx
      · rw [outsAt0_C m c t h0 h1 h2 h3]
        dsimp only
        exact sC1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y x hx
    · have h3 : ¬t.val % 256 = 255 := by omega
      rw [outsAt0_B m c t h0 h1 h2 h3]
      dsimp only
      exact sB1_in (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y x hx

theorem step1_out (c : Dev nD) (t : Fin cfg0.N) (y : S1x1x8192.Idx)
    (hy : (y 2).val < 512 * ((grid0.coords t) 2).val ∨ 512 * ((grid0.coords t) 2).val + 512 ≤ (y 2).val) :
    S1 m c t y = P1 m c t y := by
  have hN : t.val < 1024 := lt_of_lt_of_eq t.isLt N_eq
  show (outsAt0 m c t.val t.isLt).2.2.2 y = _
  by_cases h0 : t.val % 16 = 0
  · have h1 : ¬t.val % 16 = 15 := by omega
    have h3 : ¬t.val % 256 = 255 := by omega
    by_cases h2 : t.val % 256 = 0
    · have hP : P1 m c t = k0_pay2 (F := Ideal) := if_pos h2
      rw [hP, outsAt0_A m c t h0 h1 h2 h3]
      dsimp only
      exact sA1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) _ _ _ _ y hy
    · have hP : P1 m c t = (outsAt0 m c (t.val - 1) (Nat.lt_of_le_of_lt (Nat.sub_le _ _) t.isLt)).2.2.2 := if_neg h2
      rw [hP, outsAt0_D m c t h0 h1 h2 h3]
      dsimp only
      exact sD1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.2 _ _ _ _ y hy
  · have h2 : ¬t.val % 256 = 0 := by omega
    have hP : P1 m c t = (outsAt0 m c (t.val - 1) (Nat.lt_of_le_of_lt (Nat.sub_le _ _) t.isLt)).2.2.2 := if_neg h2
    rw [hP]
    by_cases h1 : t.val % 16 = 15
    · by_cases h3 : t.val % 256 = 255
      · rw [outsAt0_E m c t h0 h1 h2 h3]
        dsimp only
        exact sE1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y hy
      · rw [outsAt0_C m c t h0 h1 h2 h3]
        dsimp only
        exact sC1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y hy
    · have h3 : ¬t.val % 256 = 255 := by omega
      rw [outsAt0_B m c t h0 h1 h2 h3]
      dsimp only
      exact sB1_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _ y hy

/-- On the last tile of the second cloud the first result block is the first running minimum. -/
theorem step2 (c : Dev nD) (t : Fin cfg0.N) (h1 : t.val % 16 = 15) : O2 m c t = S0 m c t := by
  have hN : t.val < 1024 := lt_of_lt_of_eq t.isLt N_eq
  have h0 : ¬t.val % 16 = 0 := by omega
  have h2 : ¬t.val % 256 = 0 := by omega
  show (outsAt0 m c t.val t.isLt).1 = (outsAt0 m c t.val t.isLt).2.2.1
  by_cases h3 : t.val % 256 = 255
  · rw [outsAt0_E m c t h0 h1 h2 h3]
    dsimp only
    exact (oE2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _).trans
      (sE0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _).symm
  · rw [outsAt0_C m c t h0 h1 h2 h3]
    dsimp only
    exact (oC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _).trans
      (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _).symm

/-- At the last step of a batch entry the second result block is the second running minimum. -/
theorem step3 (c : Dev nD) (t : Fin cfg0.N) (h3 : t.val % 256 = 255) : O3 m c t = S1 m c t := by
  have hN : t.val < 1024 := lt_of_lt_of_eq t.isLt N_eq
  have h0 : ¬t.val % 16 = 0 := by omega
  have h1 : t.val % 16 = 15 := by omega
  have h2 : ¬t.val % 256 = 0 := by omega
  show (outsAt0 m c t.val t.isLt).2.1 = (outsAt0 m c t.val t.isLt).2.2.2
  rw [outsAt0_E m c t h0 h1 h2 h3]
  dsimp only
  exact oE3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (blk0 m c t) (blk1 m c t) (outsAt0 m c (t.val - 1) (Nat.lt_of_le_of_lt (Nat.sub_le _ _) t.isLt)).2.2.1 (outsAt0 m c (t.val - 1) (Nat.lt_of_le_of_lt (Nat.sub_le _ _) t.isLt)).2.2.2 _ _ _ _

end Cert.KernelIdeal.Sweep

end
-- ==== Proof.BlockRead.lean ====
/-
  The tiles a step loads are points of the two clouds.

  The clouds reach the region transposed, [4, 3, 8192]: entry (b, d, p) of the transposed array is coordinate d of
  point p of batch entry b.  Step t loads block (t / 256, 0, (t / 16) % 16) of 1 × 3 × 512 entries of the first
  transposed array and block (t / 256, 0, t % 16) of the second, so entry (0, d, l) of a loaded tile is coordinate d of
  point 512 i + l of batch entry t / 256, i the tile's number: point l of tile i.
-/
import proofs.«101443_j43800076484722_2_alg».proof.Proof.Clouds
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.TileValue

variable (m : (ℓ : Loc nD τ sig) → Buf (Elt Ideal) ℓ)

/-- The first cloud as the region finds it: transposed. -/
theorem v0_eq (c : Dev nD) :
    (V m c main_v0 : S4x3x8192.Idx → EReal)
      = transpose S4x3x8192 [0, 2, 1] (m ((c : Thread nD τ).loc main_arg0)) transposes_S4x8192x3_S4x3x8192_0_2_1 := by
  show StableHlo.after hostOps0 (fun b => m (c, b)) (Proc.devRef .tc main_v0) = _
  after_results

/-- The second cloud as the region finds it: transposed. -/
theorem v1_eq (c : Dev nD) :
    (V m c main_v1 : S4x3x8192.Idx → EReal)
      = transpose S4x3x8192 [0, 2, 1] (m ((c : Thread nD τ).loc main_arg1)) transposes_S4x8192x3_S4x3x8192_0_2_1 := by
  show StableHlo.after hostOps0 (fun b => m (c, b)) (Proc.devRef .tc main_v1) = _
  after_results

/-- Entry (b, d, p) of the first transposed array is coordinate d of point p. -/
theorem v0_at (c : Dev nD) (b : Fin 4) (d : Fin 3) (p : Fin 8192) :
    (V m c main_v0 : S4x3x8192.Idx → EReal) (ix3 b d p) = X1 m c (ix3 b p d) :=
  (congrFun (v0_eq m c) (ix3 b d p)).trans
    (transpose_apply _ _ _ (ix3 b d p) (ix3 b p d) (fun a => by
      match a with
      | ⟨0, _⟩ => rfl
      | ⟨1, _⟩ => rfl
      | ⟨2, _⟩ => rfl))

/-- Entry (b, d, p) of the second transposed array is coordinate d of point p. -/
theorem v1_at (c : Dev nD) (b : Fin 4) (d : Fin 3) (p : Fin 8192) :
    (V m c main_v1 : S4x3x8192.Idx → EReal) (ix3 b d p) = X2 m c (ix3 b p d) :=
  (congrFun (v1_eq m c) (ix3 b d p)).trans
    (transpose_apply _ _ _ (ix3 b d p) (ix3 b p d) (fun a => by
      match a with
      | ⟨0, _⟩ => rfl
      | ⟨1, _⟩ => rfl
      | ⟨2, _⟩ => rfl))

theorem blk0_pt (c : Dev nD) (t : Fin cfg0.N) (l : Fin 512) : tpt (blk0 m c t) l = pt (X1 m c) (bOf t) (at512 (t.val / 16 % 16) l) := by
  funext d
  obtain ⟨e0, e1, e2, -⟩ := idx_facts t
  show (V m c main_v0 : S4x3x8192.Idx → EReal) (((cfg0.win 0).blk t).view.emb (ix3 0 d l))
    = X1 m c (ix3 (bOf t) (at512 (t.val / 16 % 16) l) d)
  have hemb : ((cfg0.win 0).blk t).view.emb (ix3 0 d l) = ix3 (bOf t) d (at512 (t.val / 16 % 16) l) := by
    funext a; apply Fin.ext
    match a with
    | ⟨0, _⟩ =>
      show win0_0.index t (0 : Fin 3) * 1 + 1 * (0 : ℕ) = t.val / 256
      omega
    | ⟨1, _⟩ =>
      show win0_0.index t (1 : Fin 3) * 3 + 1 * d.val = d.val
      omega
    | ⟨2, _⟩ =>
      show win0_0.index t (2 : Fin 3) * 512 + 1 * l.val = (t.val / 16 % 16 % 16) * 512 + l.val
      omega
  rw [hemb]
  exact v0_at m c (bOf t) d (at512 (t.val / 16 % 16) l)

theorem blk1_pt (c : Dev nD) (t : Fin cfg0.N) (a : Fin 512) : tpt (blk1 m c t) a = pt (X2 m c) (bOf t) (at512 (t.val % 16) a) := by
  funext d
  obtain ⟨-, -, -, e0, e1, e2, -⟩ := idx_facts t
  show (V m c main_v1 : S4x3x8192.Idx → EReal) (((cfg0.win 1).blk t).view.emb (ix3 0 d a))
    = X2 m c (ix3 (bOf t) (at512 (t.val % 16) a) d)
  have hemb : ((cfg0.win 1).blk t).view.emb (ix3 0 d a) = ix3 (bOf t) d (at512 (t.val % 16) a) := by
    funext k; apply Fin.ext
    match k with
    | ⟨0, _⟩ =>
      show win0_1.index t (0 : Fin 3) * 1 + 1 * (0 : ℕ) = t.val / 256
      omega
    | ⟨1, _⟩ =>
      show win0_1.index t (1 : Fin 3) * 3 + 1 * d.val = d.val
      omega
    | ⟨2, _⟩ =>
      show win0_1.index t (2 : Fin 3) * 512 + 1 * a.val = (t.val % 16 % 16) * 512 + a.val
      omega
  rw [hemb]
  exact v1_at m c (bOf t) d (at512 (t.val % 16) a)

end Cert.KernelIdeal.Sweep

end
-- ==== Proof.SweepMath.lean ====
/-
  The running minima of the sweep, step by step, and what they are when the sweep ends.

  The sweep visits, for each batch entry, the tiles (i, j) of the two clouds in row-major order.  At (i, j) the running
  minimum for a point q of the second cloud gains the tile (i, j)'s column minimum when q lies in tile j, and stays
  otherwise; its first value, at (0, 0), is the minimum of ⊤ with tile (0, 0)'s column minimum on the first tile's
  lanes and ⊤ elsewhere.  At the end of a row of tiles the first running minimum is the infimum over the whole second
  cloud, and after the last tile the second is the infimum over the whole first cloud.
-/
import proofs.«101443_j43800076484722_2_alg».proof.Proof.Chamfer

noncomputable section

namespace Cert.Chamfer

open Idealize.ShloMosaic Idealize.ShloMosaic.ValueIdx

/-- The very first step, on the lanes of the first tile. -/
theorem acc2_first (x1 x2 : Pts) (b : Fin 4) (q : Fin 8192) (a : Fin 512) (hq : q.val = a.val) :
    acc2 x1 x2 b 0 0 q = min ⊤ (tmin2 x1 x2 b 0 0 a) := by
  have ha := a.isLt
  have h1 : q.val / 512 = 0 := by omega
  have h2 : (⟨q.val % 512, Nat.mod_lt _ (by decide)⟩ : Fin 512) = a := Fin.ext (by show q.val % 512 = a.val; omega)
  unfold acc2
  rw [h2, h1, show cnt 0 0 0 = 1 from rfl, Finset.range_one, Finset.inf_singleton, min_eq_right le_top]

/-- The very first step, on the other lanes. -/
theorem acc2_first_out (x1 x2 : Pts) (b : Fin 4) (q : Fin 8192) (hq : 512 ≤ q.val) : acc2 x1 x2 b 0 0 q = ⊤ := by
  refine acc2_none x1 x2 b 0 0 q ?_
  unfold cnt
  rw [if_neg (by omega)]

/-- A later step, on the lanes of its own tile j: the step before was (i', j'), which had folded in i tiles for this tile. -/
theorem acc2_in (x1 x2 : Pts) (b : Fin 4) (i j i' j' : ℕ) (q : Fin 8192) (a : Fin 512) (hq : q.val = 512 * j + a.val)
    (hc : cnt i j j = cnt i' j' j + 1) (hi : cnt i' j' j = i) :
    acc2 x1 x2 b i j q = min (acc2 x1 x2 b i' j' q) (tmin2 x1 x2 b i j a) := by
  have ha := a.isLt
  have h1 : q.val / 512 = j := by omega
  have h2 : (⟨q.val % 512, Nat.mod_lt _ (by decide)⟩ : Fin 512) = a := Fin.ext (by show q.val % 512 = a.val; omega)
  rw [acc2_step x1 x2 b i j i' j' q (by rw [h1]; exact hc), h2, h1, hi]

/-- A later step, on the other lanes. -/
theorem acc2_out (x1 x2 : Pts) (b : Fin 4) (i j i' j' : ℕ) (q : Fin 8192)
    (hc : cnt i j (q.val / 512) = cnt i' j' (q.val / 512)) : acc2 x1 x2 b i j q = acc2 x1 x2 b i' j' q :=
  acc2_same x1 x2 b i j i' j' q hc

/-- At the end of a row of tiles the first running minimum is the least distance to the whole second cloud. -/
theorem near1_of_acc1 (x1 x2 : Pts) (b : Fin 4) (i : ℕ) (hi : i < 16) (l : Fin 512) :
    acc1 x1 x2 b i 15 l = near1 x1 x2 (ix2 b (at512 i l)) := by
  have hl := l.isLt
  have h := acc1_last x1 x2 b (at512 i l)
  have h1 : (at512 i l).val / 512 = i := by rw [at512_val]; omega
  have h2 : (⟨(at512 i l).val % 512, Nat.mod_lt _ (by decide)⟩ : Fin 512) = l :=
    Fin.ext (by show (at512 i l).val % 512 = l.val; rw [at512_val]; omega)
  rw [h2, h1] at h
  exact h

/-- After the last tile the second running minimum is the least distance to the whole first cloud. -/
theorem near2_of_acc2 (x1 x2 : Pts) (b : Fin 4) (q : Fin 8192) : acc2 x1 x2 b 15 15 q = near2 x1 x2 (ix2 b q) :=
  acc2_last x1 x2 b q

end Cert.Chamfer

end
-- ==== Proof.Sweep.lean ====
/-
  The sweep's running minima are the specification's, step by step; hence what the result blocks receive.

  By induction on the step.  Step t = 256 b + 16 i + j works on tiles i and j of batch entry b.  Its first running
  minimum is the minimum of what it starts from with tile (i, j)'s row minima: from +inf when j = 0, from the running
  minimum over tiles 0 … j - 1 otherwise, so it is the running minimum over tiles 0 … j.  Its second running minimum, at a
  point q of the second cloud, gains tile (i, j)'s column minimum when q lies in tile j and is unchanged otherwise; the
  step before is (i, j - 1), or (i - 1, 15) when j = 0, and the count of tiles of the first cloud folded in for q's
  tile goes up by one exactly on q's own tile.  At j = 15 the first result block receives the infimum over the whole
  second cloud, at the last step of a batch entry the second receives the infimum over the whole first cloud.
-/
import proofs.«101443_j43800076484722_2_alg».proof.Proof.Steps
import proofs.«101443_j43800076484722_2_alg».proof.Proof.BlockRead
import proofs.«101443_j43800076484722_2_alg».proof.Proof.SweepMath

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.TileValue Cert.KernelIdeal.Pieces

variable (m : (ℓ : Loc nD τ sig) → Buf (Elt Ideal) ℓ)

/-- The row minima of a step's tile are the specification's. -/
theorem tile1 (c : Dev nD) (t : Fin cfg0.N) (l : Fin 512) :
    k0_pay5 (F := Ideal) (blk0 m c t) (blk1 m c t) (ix3 0 0 l)
      = tmin1 (X1 m c) (X2 m c) (bOf t) (t.val / 16 % 16) (t.val % 16) l := by
  rw [pay5_apply]
  unfold tmin1 Cert.Chamfer.dist
  exact Finset.inf_congr rfl fun a _ => by rw [blk0_pt, blk1_pt]

/-- The column minima of a step's tile are the specification's. -/
theorem tile2 (c : Dev nD) (t : Fin cfg0.N) (a : Fin 512) :
    k0_pay6 (F := Ideal) (blk0 m c t) (blk1 m c t) (ix3 0 0 a)
      = tmin2 (X1 m c) (X2 m c) (bOf t) (t.val / 16 % 16) (t.val % 16) a := by
  rw [pay6_apply]
  unfold tmin2 Cert.Chamfer.dist
  exact Finset.inf_congr rfl fun l _ => by rw [blk0_pt, blk1_pt]

/-- The step's coordinates from its number. -/
theorem coords_of (t : Fin cfg0.N) (b : Fin 4) (i j : ℕ) (hi : i < 16) (hj : j < 16) (ht : t.val = 256 * b.val + 16 * i + j) :
    bOf t = b ∧ t.val / 16 % 16 = i ∧ t.val % 16 = j := by
  have hb := b.isLt
  refine ⟨Fin.ext ?_, ?_, ?_⟩
  · rw [bOf_val]; omega
  · omega
  · omega

/-- The lanes a step updates, read out of a vector: lane 512 j + a at a. -/
theorem lanes_apply (t : Fin cfg0.N) (P : Vec Ideal S1x1x8192 .f32) (y : S1x1x8192.Idx) (x : S1x1x512.Idx)
    (hx : ∀ a, (y a).val = (![0, 0, 512 * ((grid0.coords t) 2).val] : Fin 3 → ℕ) a + (x a).val) :
    lanes t P x = P y := by
  show P ((Rect.unit (s := S1x1x8192) (k0_off1 (grid0.coords t)) S1x1x512.size (k0_off1_inb (grid0.coords t))).emb x) = P y
  refine congrArg P (funext fun a => Fin.ext ?_)
  show (k0_off1 (grid0.coords t)) a + 1 * (x a).val = (y a).val
  rw [k0_off1_eq, hx a, Nat.one_mul]

/-- The first running minimum after a step, lane by lane. -/
theorem S0_val (c : Dev nD) (t : Fin cfg0.N) (b : Fin 4) (i j : ℕ) (hi : i < 16) (hj : j < 16)
    (ht : t.val = 256 * b.val + 16 * i + j) (l : Fin 512) :
    S0 m c t (ix3 0 0 l) = min (P0 m c t (ix3 0 0 l)) (tmin1 (X1 m c) (X2 m c) b i j l) := by
  obtain ⟨e1, e2, e3⟩ := coords_of t b i j hi hj ht
  rw [step0]
  refine (pay1_apply _ _ _).trans ?_
  rw [tile1, e1, e2, e3]

/-- The second running minimum after a step, on the lanes of the step's column tile. -/
theorem S1_val_in (c : Dev nD) (t : Fin cfg0.N) (b : Fin 4) (i j : ℕ) (hi : i < 16) (hj : j < 16)
    (ht : t.val = 256 * b.val + 16 * i + j) (q : Fin 8192) (a : Fin 512) (hq : q.val = 512 * j + a.val) :
    S1 m c t (ix3 0 0 q) = min (P1 m c t (ix3 0 0 q)) (tmin2 (X1 m c) (X2 m c) b i j a) := by
  obtain ⟨e1, e2, e3⟩ := coords_of t b i j hi hj ht
  obtain ⟨-, -, -, -, -, -, -, -, -, -, -, -, hc⟩ := idx_facts t
  have hx : ∀ a', ((ix3 0 0 q : S1x1x8192.Idx) a').val
      = (![0, 0, 512 * ((grid0.coords t) 2).val] : Fin 3 → ℕ) a' + ((ix3 0 0 a : S1x1x512.Idx) a').val := fun a' => by
    match a' with
    | ⟨0, _⟩ => rfl
    | ⟨1, _⟩ => rfl
    | ⟨2, _⟩ => show q.val = 512 * ((grid0.coords t) 2).val + a.val; rw [hc, e3]; exact hq
  rw [step1_in m c t (ix3 0 0 q) (ix3 0 0 a) hx]
  refine (pay3_apply _ _ _).trans ?_
  rw [lanes_apply t (P1 m c t) (ix3 0 0 q) (ix3 0 0 a) hx, tile2, e1, e2, e3]

/-- The second running minimum after a step, on the other lanes. -/
theorem S1_val_out (c : Dev nD) (t : Fin cfg0.N) (b : Fin 4) (i j : ℕ) (hi : i < 16) (hj : j < 16)
    (ht : t.val = 256 * b.val + 16 * i + j) (q : Fin 8192) (hq : q.val / 512 ≠ j) :
    S1 m c t (ix3 0 0 q) = P1 m c t (ix3 0 0 q) := by
  obtain ⟨e1, e2, e3⟩ := coords_of t b i j hi hj ht
  obtain ⟨-, -, -, -, -, -, -, -, -, -, -, -, hc⟩ := idx_facts t
  refine step1_out m c t (ix3 0 0 q) ?_
  show q.val < 512 * ((grid0.coords t) 2).val ∨ 512 * ((grid0.coords t) 2).val + 512 ≤ q.val
  rw [hc, e3]
  omega

/-- THE INVARIANT: after step 256 b + 16 i + j the two running minima are the specification's at (b, i, j). -/
theorem inv (c : Dev nD) : ∀ (n : ℕ) (hn : n < cfg0.N) (b : Fin 4) (i j : ℕ), i < 16 → j < 16 → n = 256 * b.val + 16 * i + j →
    (∀ l : Fin 512, S0 m c ⟨n, hn⟩ (ix3 0 0 l) = acc1 (X1 m c) (X2 m c) b i j l)
    ∧ (∀ q : Fin 8192, S1 m c ⟨n, hn⟩ (ix3 0 0 q) = acc2 (X1 m c) (X2 m c) b i j q) := by
  intro n
  induction n with
  | zero =>
    intro hn b i j hi hj ht
    have hb := b.isLt
    obtain rfl : i = 0 := by omega
    obtain rfl : j = 0 := by omega
    refine ⟨fun l => ?_, fun q => ?_⟩
    · rw [S0_val m c ⟨0, hn⟩ b 0 0 hi hj ht l, show P0 m c ⟨0, hn⟩ = k0_pay7 (F := Ideal) from if_pos rfl, pay7_apply, acc1_zero]
    · have hP : P1 m c ⟨0, hn⟩ = k0_pay2 (F := Ideal) := if_pos rfl
      by_cases hq : q.val / 512 = 0
      · have hq' : q.val < 512 := by omega
        rw [S1_val_in m c ⟨0, hn⟩ b 0 0 hi hj ht q ⟨q.val, hq'⟩ (by show q.val = 512 * 0 + q.val; omega), hP, pay2_apply,
          acc2_first _ _ b q ⟨q.val, hq'⟩ rfl]
      · rw [S1_val_out m c ⟨0, hn⟩ b 0 0 hi hj ht q hq, hP, pay2_apply, acc2_first_out _ _ b q (by omega)]
  | succ n ih =>
    intro hn b i j hi hj ht
    have hb := b.isLt
    have hN : n + 1 < 1024 := lt_of_lt_of_eq hn N_eq
    have hn' : n < cfg0.N := Nat.lt_of_succ_lt hn
    -- what the step before left, named at step n
    have hprev0 : (outsAt0 m c ((⟨n + 1, hn⟩ : Fin cfg0.N).val - 1) (Nat.lt_of_le_of_lt (Nat.sub_le _ _) (⟨n + 1, hn⟩ : Fin cfg0.N).isLt)).2.2.1
        = S0 m c ⟨n, hn'⟩ := rfl
    have hprev1 : (outsAt0 m c ((⟨n + 1, hn⟩ : Fin cfg0.N).val - 1) (Nat.lt_of_le_of_lt (Nat.sub_le _ _) (⟨n + 1, hn⟩ : Fin cfg0.N).isLt)).2.2.2
        = S1 m c ⟨n, hn'⟩ := rfl
    refine ⟨fun l => ?_, fun q => ?_⟩
    · rw [S0_val m c ⟨n + 1, hn⟩ b i j hi hj ht l]
      cases j with
      | zero =>
        rw [show P0 m c ⟨n + 1, hn⟩ = k0_pay7 (F := Ideal) from if_pos (by show (n + 1) % 16 = 0; omega), pay7_apply, acc1_zero]
      | succ j' =>
        rw [show P0 m c ⟨n + 1, hn⟩ = S0 m c ⟨n, hn'⟩ from (if_neg (by show ¬(n + 1) % 16 = 0; omega)).trans hprev0,
          (ih hn' b i j' hi (by omega) (by omega)).1 l, acc1_succ]
    · have hq8 := q.isLt
      by_cases hA : (n + 1) % 256 = 0
      · -- the first step of a batch entry
        obtain rfl : i = 0 := by omega
        obtain rfl : j = 0 := by omega
        have hP : P1 m c ⟨n + 1, hn⟩ = k0_pay2 (F := Ideal) := if_pos hA
        by_cases hq : q.val / 512 = 0
        · have hq' : q.val < 512 := by omega
          rw [S1_val_in m c ⟨n + 1, hn⟩ b 0 0 hi hj ht q ⟨q.val, hq'⟩ (by show q.val = 512 * 0 + q.val; omega), hP, pay2_apply,
            acc2_first _ _ b q ⟨q.val, hq'⟩ rfl]
        · rw [S1_val_out m c ⟨n + 1, hn⟩ b 0 0 hi hj ht q hq, hP, pay2_apply, acc2_first_out _ _ b q (by omega)]
      · have hP : P1 m c ⟨n + 1, hn⟩ = S1 m c ⟨n, hn'⟩ := (if_neg hA).trans hprev1
        cases j with
        | zero =>
          -- the step before is (i - 1, 15)
          obtain ⟨i', rfl⟩ : ∃ i', i = i' + 1 := ⟨i - 1, by omega⟩
          have ihq := (ih hn' b i' 15 (by omega) (by omega) (by omega)).2 q
          by_cases hq : q.val / 512 = 0
          · have hq' : q.val < 512 := by omega
            rw [S1_val_in m c ⟨n + 1, hn⟩ b (i' + 1) 0 hi hj ht q ⟨q.val, hq'⟩ (by show q.val = 512 * 0 + q.val; omega), hP, ihq]
            exact (acc2_in _ _ b (i' + 1) 0 i' 15 q ⟨q.val, hq'⟩ (by show q.val = 512 * 0 + q.val; omega)
              (by unfold cnt; simp) (by unfold cnt; simp)).symm
          · rw [S1_val_out m c ⟨n + 1, hn⟩ b (i' + 1) 0 hi hj ht q hq, hP, ihq]
            exact (acc2_out _ _ b (i' + 1) 0 i' 15 q (by unfold cnt; rw [if_neg (by omega), if_pos (by omega)])).symm
        | succ j' =>
          have ihq := (ih hn' b i j' hi (by omega) (by omega)).2 q
          by_cases hq : q.val / 512 = j' + 1
          · have hlt : q.val % 512 < 512 := Nat.mod_lt _ (by decide)
            rw [S1_val_in m c ⟨n + 1, hn⟩ b i (j' + 1) hi hj ht q ⟨q.val % 512, hlt⟩ (by show q.val = 512 * (j' + 1) + q.val % 512; omega), hP, ihq]
            exact (acc2_in _ _ b i (j' + 1) i j' q ⟨q.val % 512, hlt⟩ (by show q.val = 512 * (j' + 1) + q.val % 512; omega)
              (by unfold cnt; rw [if_pos (le_refl _), if_neg (by omega)]) (by unfold cnt; rw [if_neg (by omega)])).symm
          · rw [S1_val_out m c ⟨n + 1, hn⟩ b i (j' + 1) hi hj ht q hq, hP, ihq]
            refine (acc2_out _ _ b i (j' + 1) i j' q ?_).symm
            unfold cnt
            by_cases hle : q.val / 512 ≤ j'
            · rw [if_pos (by omega), if_pos hle]
            · rw [if_neg (by omega), if_neg hle]

/-- At a step on the last tile of the second cloud, the first result block holds, lane by lane, the least distance from
    the tile's points to the whole second cloud. -/
theorem out2_at (c : Dev nD) (t : Fin cfg0.N) (h : t.val % 16 = 15) (l : Fin 512) :
    (outsAt0 m c t.val t.isLt).1 (ix3 0 0 l) = near1 (X1 m c) (X2 m c) (ix2 (bOf t) (at512 (t.val / 16 % 16) l)) := by
  have hN : t.val < 1024 := lt_of_lt_of_eq t.isLt N_eq
  show O2 m c t (ix3 0 0 l) = _
  rw [step2 m c t h]
  have hi : t.val / 16 % 16 < 16 := Nat.mod_lt _ (by decide)
  rw [← near1_of_acc1 _ _ (bOf t) (t.val / 16 % 16) hi l]
  exact (inv m c t.val t.isLt (bOf t) (t.val / 16 % 16) 15 hi (by decide) (by rw [bOf_val]; omega)).1 l

/-- At the last step of a batch entry, the second result block holds, lane by lane, the least distance from the whole
    first cloud to each point of the second. -/
theorem out3_at (c : Dev nD) (t : Fin cfg0.N) (h : t.val % 256 = 255) (q : Fin 8192) :
    (outsAt0 m c t.val t.isLt).2.1 (ix3 0 0 q) = near2 (X1 m c) (X2 m c) (ix2 (bOf t) q) := by
  have hN : t.val < 1024 := lt_of_lt_of_eq t.isLt N_eq
  show O3 m c t (ix3 0 0 q) = _
  rw [step3 m c t h, ← near2_of_acc2]
  exact (inv m c t.val t.isLt (bOf t) 15 15 (by decide) (by decide) (by rw [bOf_val]; omega)).2 q

end Cert.KernelIdeal.Sweep

end
-- ==== Proof.Final.lean ====
/-
  From the blocks the sweep writes back to the two results.

  The first result array of the region, [4, 1, 8192], is written back in blocks of 512 lanes: the step on the last
  tile of the second cloud, t = 256 b + 16 i + 15, writes block (b, 0, i), which then holds for each point of tile i of
  the first cloud its least squared distance to the whole second cloud.  The second array is written back a whole
  batch entry at a time, at the batch entry's last step t = 256 b + 255, and then holds for each point of the second
  cloud its least squared distance to the whole first cloud.  Every index (b, 0, n) lies in exactly such a block:
  n / 512 names the tile.  So after the region the arrays are the two nearest-neighbour minima with a unit axis in the
  middle, and the two reshapes to [4, 8192] that end the program drop that axis: row-major, (b, 0, n) and (b, n) are
  the same place.
-/
import proofs.«101443_j43800076484722_2_alg».proof.Proof.Sweep
import Idealize.ShloMosaic.Lib.Pipeline.Value
import Idealize.ShloMosaic.Lib.Pipeline.Frame
import Idealize.ShloMosaic.Lib.Pipeline.FrameSuffix
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Sweep

open Cert.KernelIdeal Cert.KernelIdeal.Gen Cert.Chamfer Cert.KernelIdeal.TileValue
open Idealize.ShloMosaic.Pipeline (Dat)

variable (m : (ℓ : Loc nD τ sig) → Buf (Elt Ideal) ℓ)

/-- The region's first result array [4, 1, 8192]: at (b, 0, n) the least squared distance from point n of the first cloud to the second cloud. -/
def R1 (c : Dev nD) : S4x1x8192.Idx → EReal := fun i => near1 (X1 m c) (X2 m c) (ix2 (⟨(i 0).val, (i 0).isLt⟩ : Fin 4) (⟨(i 2).val, (i 2).isLt⟩ : Fin 8192))
/-- The region's second result array [4, 1, 8192]: at (b, 0, q) the least squared distance from the first cloud to point q of the second. -/
def R2 (c : Dev nD) : S4x1x8192.Idx → EReal := fun i => near2 (X1 m c) (X2 m c) (ix2 (⟨(i 0).val, (i 0).isLt⟩ : Fin 4) (⟨(i 2).val, (i 2).isLt⟩ : Fin 8192))

/-- The first result array at an index whose batch entry is b and whose point is n. -/
theorem R1_at (c : Dev nD) (i : S4x1x8192.Idx) (b : Fin 4) (n : Fin 8192) (h0 : (i 0).val = b.val) (h2 : (i 2).val = n.val) :
    R1 m c i = near1 (X1 m c) (X2 m c) (ix2 b n) := by
  unfold R1
  rw [show (⟨(i 0).val, (i 0).isLt⟩ : Fin 4) = b from Fin.ext h0, show (⟨(i 2).val, (i 2).isLt⟩ : Fin 8192) = n from Fin.ext h2]

/-- The second result array at an index whose batch entry is b and whose point is q. -/
theorem R2_at (c : Dev nD) (i : S4x1x8192.Idx) (b : Fin 4) (q : Fin 8192) (h0 : (i 0).val = b.val) (h2 : (i 2).val = q.val) :
    R2 m c i = near2 (X1 m c) (X2 m c) (ix2 b q) := by
  unfold R2
  rw [show (⟨(i 0).val, (i 0).isLt⟩ : Fin 4) = b from Fin.ext h0, show (⟨(i 2).val, (i 2).isLt⟩ : Fin 8192) = q from Fin.ext h2]

/-! ## What a step writes back -/

/-- A step on the last tile of the second cloud writes back its block of the first result array. -/
theorem flushed2_eq (c : Dev nD) (t : Fin cfg0.N) (hf : (cfg0.win 2).flush t = true) :
    (dats m 0 c).flushed 2 t = ((cfg0.win 2).blk t).view.read (Elt Ideal) (R1 m c) := by
  have h15 : t.val % 16 = 15 := (flush0_2 t).mp hf
  obtain ⟨-, -, -, -, -, -, e0, e1, e2, -⟩ := idx_facts t
  show (cfg0.win 2).cut (grid0.coords t) ((dats m 0 c).after 2 t) = _
  rw [after0_2]
  funext y
  obtain ⟨a, b, l, rfl⟩ : ∃ (a : Fin 1) (b : Fin 1) (l : Fin 512), y = ix3 a b l := ⟨y 0, y 1, y 2, eq_ix3 y⟩
  obtain rfl : a = 0 := Subsingleton.elim _ _
  obtain rfl : b = 0 := Subsingleton.elim _ _
  show (outsAt0 m c t.val t.isLt).1 (ix3 0 0 l) = R1 m c (((cfg0.win 2).blk t).view.emb (ix3 0 0 l))
  refine (out2_at m c t h15 l).trans (R1_at m c _ (bOf t) (at512 (t.val / 16 % 16) l) ?_ ?_).symm
  · show win0_2.index t (0 : Fin 3) * 1 + 1 * (0 : ℕ) = t.val / 256
    omega
  · show win0_2.index t (2 : Fin 3) * 512 + 1 * l.val = (t.val / 16 % 16 % 16) * 512 + l.val
    omega

/-- The last step of a batch entry writes back its block of the second result array. -/
theorem flushed3_eq (c : Dev nD) (t : Fin cfg0.N) (hf : (cfg0.win 3).flush t = true) :
    (dats m 0 c).flushed 3 t = ((cfg0.win 3).blk t).view.read (Elt Ideal) (R2 m c) := by
  have h255 : t.val % 256 = 255 := (flush0_3 t).mp hf
  obtain ⟨-, -, -, -, -, -, -, -, -, e0, e1, e2, -⟩ := idx_facts t
  show (cfg0.win 3).cut (grid0.coords t) ((dats m 0 c).after 3 t) = _
  rw [after0_3]
  funext y
  obtain ⟨a, b, q, rfl⟩ : ∃ (a : Fin 1) (b : Fin 1) (q : Fin 8192), y = ix3 a b q := ⟨y 0, y 1, y 2, eq_ix3 y⟩
  obtain rfl : a = 0 := Subsingleton.elim _ _
  obtain rfl : b = 0 := Subsingleton.elim _ _
  show (outsAt0 m c t.val t.isLt).2.1 (ix3 0 0 q) = R2 m c (((cfg0.win 3).blk t).view.emb (ix3 0 0 q))
  refine (out3_at m c t h255 q).trans (R2_at m c _ (bOf t) q ?_ ?_).symm
  · show win0_3.index t (0 : Fin 3) * 1 + 1 * (0 : ℕ) = t.val / 256
    omega
  · show win0_3.index t (2 : Fin 3) * 8192 + 1 * q.val = q.val
    omega

/-! ## The blocks tile the arrays -/

/-- An index of the first result array is in a step's block iff each coordinate is in the block's range on its axis. -/
theorem mem_blk2 (t : Fin cfg0.N) (i : S4x1x8192.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v2_0).slice (win0_2.rect t)).set ↔ _
  rw [View.set_slice_whole, Rect.mem_set_unit]
  exact Iff.rfl

/-- An index of the second result array is in a step's block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v2_1).slice (win0_3.rect t)).set ↔ _
  rw [View.set_slice_whole, Rect.mem_set_unit]
  exact Iff.rfl

/-- Index (b, 0, n) of the first result array lies in the block written back at step 256 b + 16 (n / 512) + 15. -/
theorem cover2 (i : S4x1x8192.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 8192 := (i 2).isLt
  let t : Fin cfg0.N := ⟨256 * (i 0).val + 16 * ((i 2).val / 512) + 15, by rw [N_eq]; omega⟩
  have htv : t.val = 256 * (i 0).val + 16 * ((i 2).val / 512) + 15 := rfl
  obtain ⟨-, -, -, -, -, -, e0, e1, e2, -⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512; omega

/-- Index (b, 0, q) of the second result array lies in the block written back at step 256 b + 255. -/
theorem cover3 (i : S4x1x8192.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  let t : Fin cfg0.N := ⟨256 * (i 0).val + 255, by rw [N_eq]; omega⟩
  have htv : t.val = 256 * (i 0).val + 255 := rfl
  obtain ⟨-, -, -, -, -, -, -, -, -, e0, e1, e2, -⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-! ## The arrays after the region -/

theorem final2 (c : Dev nD) : (dats m 0 c).arrAt 2 cfg0.N = R1 m c :=
  (dats m 0 c).arrAt_eq_of_cover 2 (R1 m c) (fun t hf => flushed2_eq m c t hf) (fun i => cover2 i)

theorem final3 (c : Dev nD) : (dats m 0 c).arrAt 3 cfg0.N = R2 m c :=
  (dats m 0 c).arrAt_eq_of_cover 3 (R2 m c) (fun t hf => flushed3_eq m c t hf) (fun i => cover3 i)

/-! ## The results after the reshapes -/

/-- The first result, the first array without its unit axis. -/
theorem tail_v3 (c : Dev nD) :
    Pipeline.afterTail₀ cfgs (dats m) 0 (V0 m) [hostOps1] c main_v3 = near1 (X1 m c) (X2 m c) := by
  have hw : (Pipeline.withArrays (cfgs 0).spec c (V0 m c) (fun w => (dats m 0 c).arrAt w (cfgs 0).N)
      (Proc.devRef .tc main_v2_0) : S4x1x8192.Idx → EReal) = R1 m c :=
    (Pipeline.withArrays_arr spec0 launch0.win.arr_inj c _ _ 2).trans (final2 m c)
  unfold Pipeline.afterTail₀
  show StableHlo.after hostOps1 _ (Proc.devRef .tc main_v3) = _
  after_results
  funext j
  obtain ⟨b, n, rfl⟩ : ∃ (b : Fin 4) (n : Fin 8192), j = ix2 b n := ⟨j 0, j 1, eq_ix2 j⟩
  show shapeCast S4x8192 (Pipeline.withArrays (cfgs 0).spec c (V0 m c) (fun w => (dats m 0 c).arrAt w (cfgs 0).N)
      (Proc.devRef .tc main_v2_0)) shapeCasts_S4x1x8192_S4x8192 (ix2 b n) = _
  refine (shapeCast_apply _ _ (ix2 b n) (ix3 b 0 n) ?_).trans ?_
  · rw [Shape.rowMajor_val_two, Shape.rowMajor_val_three]
    show (b.val * 1 + 0) * 8192 + n.val = b.val * 8192 + n.val
    omega
  · exact (congrFun hw (ix3 b 0 n)).trans (R1_at m c _ b n rfl rfl)

/-- The second result, the second array without its unit axis. -/
theorem tail_v4 (c : Dev nD) :
    Pipeline.afterTail₀ cfgs (dats m) 0 (V0 m) [hostOps1] c main_v4 = near2 (X1 m c) (X2 m c) := by
  have hw : (Pipeline.withArrays (cfgs 0).spec c (V0 m c) (fun w => (dats m 0 c).arrAt w (cfgs 0).N)
      (Proc.devRef .tc main_v2_1) : S4x1x8192.Idx → EReal) = R2 m c :=
    (Pipeline.withArrays_arr spec0 launch0.win.arr_inj c _ _ 3).trans (final3 m c)
  unfold Pipeline.afterTail₀
  show StableHlo.after hostOps1 _ (Proc.devRef .tc main_v4) = _
  after_results
  funext j
  obtain ⟨b, q, rfl⟩ : ∃ (b : Fin 4) (q : Fin 8192), j = ix2 b q := ⟨j 0, j 1, eq_ix2 j⟩
  show shapeCast S4x8192 (Pipeline.withArrays (cfgs 0).spec c (V0 m c) (fun w => (dats m 0 c).arrAt w (cfgs 0).N)
      (Proc.devRef .tc main_v2_1)) shapeCasts_S4x1x8192_S4x8192 (ix2 b q) = _
  refine (shapeCast_apply _ _ (ix2 b q) (ix3 b 0 q) ?_).trans ?_
  · rw [Shape.rowMajor_val_two, Shape.rowMajor_val_three]
    show (b.val * 1 + 0) * 8192 + q.val = b.val * 8192 + q.val
    omega
  · exact (congrFun hw (ix3 b 0 q)).trans (R2_at m c _ b q rfl rfl)

/-! ## The run, read -/

theorem run (ρ : Dev nD → PrngReg) : θ_run defs (onTc (τ := τ) (main (F := Ideal))) ⟨m, fun _ => 0, ρ⟩ fun r => ∀ c : Dev nD,
      r.2.mem ((c.tc : Thread nD τ).loc main_v3) = near1 (X1 m c) (X2 m c)
      ∧ r.2.mem ((c.tc : Thread nD τ).loc main_v4) = near2 (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_v3 m c),
     ((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Sweep

end
-- ==== Proof.RefValue.lean ====
/-
  The reference's two results, read as the two nearest-neighbour minima.

  The reference expands the squared distance: at (b, n, m) it takes the squared norm of point n of the first cloud
  plus the squared norm of point m of the second, less twice their inner product.  Where every coordinate is a real
  number this is the sum of the three squared coordinate differences, by (v - u)^2 = u^2 + v^2 - 2uv in each
  coordinate; at an infinite coordinate the expansion is ∞ - ∞ and the identity fails, so finiteness is assumed.
  Each result is then a minimum over one axis, taken from +∞: the infimum of the finite family of distances.
-/
import proofs.«101443_j43800076484722_2_alg».proof.Proof.Gen.ReferenceIdeal.Read
import proofs.«101443_j43800076484722_2_alg».proof.Proof.Chamfer
import Idealize.ShloMosaic.PureOps.Ideal.Laws
import Idealize.ShloMosaic.PureOps.Reduce
import Idealize.ShloMosaic.Lib.ValueIdx
import Idealize.ShloMosaic.Lib.Pipeline.Value
import Mathlib.Data.EReal.Operations
import Mathlib.Tactic.Ring
import Mathlib.Tactic.NormNum

noncomputable section

namespace Cert.ReferenceIdeal.RefValue

open Cert.ReferenceIdeal Cert.ReferenceIdeal.Gen Cert.ReferenceIdeal.Read Cert.Chamfer
open Idealize.ShloMosaic Idealize.ShloMosaic.TcCoe Idealize.SL.Sem Idealize.ShloMosaic.StableHlo Idealize.ShloMosaic.ValueIdx

/-! ## The algebra -/

/-- Over the reals: the two squared norms less twice the inner product are the three squared differences. -/
theorem real_expand (a0 a1 a2 c0 c1 c2 : ℝ) :
    ((a0 * a0 + a1 * a1 + a2 * a2) + (c0 * c0 + c1 * c1 + c2 * c2)) - 2 * (a0 * c0 + a1 * c1 + a2 * c2)
      = ((c0 - a0) * (c0 - a0) + (c1 - a1) * (c1 - a1)) + (c2 - a2) * (c2 - a2) := by
  ring

/-- The same identity between extended reals that are real numbers. -/
theorem ereal_expand (a0 a1 a2 c0 c1 c2 : ℝ) :
    ((((a0 : EReal) * a0 + (a1 : EReal) * a1 + (a2 : EReal) * a2))
        + (((c0 : EReal) * c0 + (c1 : EReal) * c1 + (c2 : EReal) * c2)))
      - ((2 : ℝ) : EReal) * ((a0 : EReal) * c0 + (a1 : EReal) * c1 + (a2 : EReal) * c2)
      = (((c0 : EReal) - a0) * ((c0 : EReal) - a0) + ((c1 : EReal) - a1) * ((c1 : EReal) - a1))
          + ((c2 : EReal) - a2) * ((c2 : EReal) - a2) := by
  simp only [← EReal.coe_mul, ← EReal.coe_add, ← EReal.coe_sub]
  exact congrArg _ (real_expand a0 a1 a2 c0 c1 c2)

/-- The pattern of the f32 number 2. -/
theorem two_f32 : Ideal.ofBits .f32 0x40000000#32 = ((2 : ℝ) : EReal) := by
  simp [Ideal.ofBits, Ideal.ieee, -EReal.coe_mul]; norm_num

/-- The pattern of the f32 +∞. -/
theorem top_f32 : Ideal.ofBits .f32 0x7F800000#32 = (⊤ : EReal) := by
  simp [Ideal.ofBits, Ideal.ieee]

/-- The squared norm of point n of batch entry b: the three squares, added in coordinate order. -/
def sqn (x : Pts) (b : Fin 4) (n : Fin 8192) : EReal :=
  x (ix3 b n 0) * x (ix3 b n 0) + x (ix3 b n 1) * x (ix3 b n 1) + x (ix3 b n 2) * x (ix3 b n 2)

/-- The inner product of point n of the first cloud and point m of the second. -/
def inner3 (x1 x2 : Pts) (b : Fin 4) (n m : Fin 8192) : EReal :=
  x1 (ix3 b n 0) * x2 (ix3 b m 0) + x1 (ix3 b n 1) * x2 (ix3 b m 1) + x1 (ix3 b n 2) * x2 (ix3 b m 2)

/-- On clouds of real numbers the expansion is the squared distance. -/
theorem expand_dist (x1 x2 : Pts) (h1 : ∀ i, ∃ r : ℝ, x1 i = (r : EReal)) (h2 : ∀ i, ∃ r : ℝ, x2 i = (r : EReal))
    (b : Fin 4) (n m : Fin 8192) :
    (sqn x1 b n + sqn x2 b m) - ((2 : ℝ) : EReal) * inner3 x1 x2 b n m = Cert.Chamfer.dist x1 x2 b n m := by
  obtain ⟨a0, ha0⟩ := h1 (ix3 b n 0)
  obtain ⟨a1, ha1⟩ := h1 (ix3 b n 1)
  obtain ⟨a2, ha2⟩ := h1 (ix3 b n 2)
  obtain ⟨c0, hc0⟩ := h2 (ix3 b m 0)
  obtain ⟨c1, hc1⟩ := h2 (ix3 b m 1)
  obtain ⟨c2, hc2⟩ := h2 (ix3 b m 2)
  simp only [sqn, inner3, Cert.Chamfer.dist, sq3, pt]
  rw [ha0, ha1, ha2, hc0, hc1, hc2]
  exact ereal_expand a0 a1 a2 c0 c1 c2

/-! ## The indices the layout operations read at -/

theorem idx1_eq (b : Fin 4) (n : Fin 8192) (k : Fin 3) : idx_main_v1 (ix2 b n) k = ix3 b n k :=
  funext fun a => by match a with | ⟨0, _⟩ => rfl | ⟨1, _⟩ => rfl | ⟨2, _⟩ => rfl

theorem idx3_eq (b : Fin 4) (n : Fin 8192) (k : Fin 3) : idx_main_v3 (ix2 b n) k = ix3 b n k :=
  funext fun a => by match a with | ⟨0, _⟩ => rfl | ⟨1, _⟩ => rfl | ⟨2, _⟩ => rfl

theorem idx57_eq (b : Fin 4) (n m : Fin 8192) : idx_main_v5 (idx_main_v7 (ix3 b n m)) = ix2 b n :=
  funext fun a => by match a with | ⟨0, _⟩ => rfl | ⟨1, _⟩ => rfl

theorem idx68_eq (b : Fin 4) (n m : Fin 8192) : idx_main_v6 (idx_main_v8 (ix3 b n m)) = ix2 b m :=
  funext fun a => by match a with | ⟨0, _⟩ => rfl | ⟨1, _⟩ => rfl

theorem lidx_eq (b : Fin 4) (n m : Fin 8192) (k : Fin 3) : lidx_main_v4 (ix3 b n m) k = ix3 b n k :=
  funext fun a => by match a with | ⟨0, _⟩ => rfl | ⟨1, _⟩ => rfl | ⟨2, _⟩ => rfl

theorem ridx_eq (b : Fin 4) (n m : Fin 8192) (k : Fin 3) : ridx_main_v4 (ix3 b n m) k = ix3 b m k :=
  funext fun a => by match a with | ⟨0, _⟩ => rfl | ⟨1, _⟩ => rfl | ⟨2, _⟩ => rfl

/-! ## The stages at an index -/

/-- The first cloud's row sums of squares. -/
theorem v1_at (x : (⟨S4x8192x3, .f32⟩ : BufTy).Contents (Elt Ideal)) (b : Fin 4) (n : Fin 8192) :
    val_main_v1 (F := Ideal) x (ix2 b n) = sqn x b n := by
  rw [val_main_v1_apply, Fin.sum_univ_three, val_main_cst_apply]
  simp only [val_main_v0_apply]
  rw [idx1_eq b n 0, idx1_eq b n 1, idx1_eq b n 2]
  show Ideal.ofBits .f32 0x00000000#32 + _ = _
  rw [Ideal.ofBits_zero_f32, zero_add]
  rfl

/-- The second cloud's row sums of squares. -/
theorem v3_at (x : (⟨S4x8192x3, .f32⟩ : BufTy).Contents (Elt Ideal)) (b : Fin 4) (n : Fin 8192) :
    val_main_v3 (F := Ideal) x (ix2 b n) = sqn x b n := by
  rw [val_main_v3_apply, Fin.sum_univ_three, val_main_cst_0_apply]
  simp only [val_main_v2_apply]
  rw [idx3_eq b n 0, idx3_eq b n 1, idx3_eq b n 2]
  show Ideal.ofBits .f32 0x00000000#32 + _ = _
  rw [Ideal.ofBits_zero_f32, zero_add]
  rfl

/-- The inner products. -/
theorem v4_at (x1 x2 : (⟨S4x8192x3, .f32⟩ : BufTy).Contents (Elt Ideal)) (b : Fin 4) (n m : Fin 8192) :
    val_main_v4 (F := Ideal) x1 x2 (ix3 b n m) = inner3 x1 x2 b n m := by
  rw [val_main_v4_apply, Fin.sum_univ_three]
  rw [lidx_eq b n m 0, lidx_eq b n m 1, lidx_eq b n m 2, ridx_eq b n m 0, ridx_eq b n m 1, ridx_eq b n m 2]
  rfl

/-- The expanded squared distance at (b, n, m). -/
theorem v12_at (x1 x2 : (⟨S4x8192x3, .f32⟩ : BufTy).Contents (Elt Ideal)) (b : Fin 4) (n m : Fin 8192) :
    val_main_v12 (F := Ideal) x1 x2 (ix3 b n m)
      = (sqn x1 b n + sqn x2 b m) - ((2 : ℝ) : EReal) * inner3 x1 x2 b n m := by
  rw [val_main_v12_apply, val_main_v9_apply, val_main_v11_apply, val_main_v7_apply, val_main_v8_apply,
    val_main_v5_apply, val_main_v6_apply, val_main_v10_apply, val_main_cst_1_apply, idx57_eq, idx68_eq,
    v1_at, v3_at, v4_at]
  show (sqn x1 b n + sqn x2 b m) - Ideal.ofBits .f32 0x40000000#32 * inner3 x1 x2 b n m = _
  rw [two_f32]

/-- On clouds of real numbers the reference's distance array is the squared distance. -/
theorem v12_dist (x1 x2 : (⟨S4x8192x3, .f32⟩ : BufTy).Contents (Elt Ideal))
    (h1 : ∀ i, ∃ r : ℝ, x1 i = (r : EReal)) (h2 : ∀ i, ∃ r : ℝ, x2 i = (r : EReal)) (b : Fin 4) (n m : Fin 8192) :
    val_main_v12 (F := Ideal) x1 x2 (ix3 b n m) = Cert.Chamfer.dist x1 x2 b n m :=
  (v12_at x1 x2 b n m).trans (expand_dist x1 x2 h1 h2 b n m)

/-! ## The two minima -/

/-- Over (b, n), coordinate m inserted on the last axis. -/
theorem lift2_eq (h : S4x8192x8192.Reduces [2] S4x8192) (b : Fin 4) (n m : Fin 8192) :
    h.lift (ix2 b n) m = ix3 b n m :=
  funext fun a => Fin.ext (by match a with | ⟨0, _⟩ => rfl | ⟨1, _⟩ => rfl | ⟨2, _⟩ => rfl)

/-- Over (b, m), coordinate n inserted on the middle axis. -/
theorem lift1_eq (h : S4x8192x8192.Reduces [1] S4x8192) (b : Fin 4) (m n : Fin 8192) :
    h.lift (ix2 b m) n = ix3 b n m :=
  funext fun a => Fin.ext (by match a with | ⟨0, _⟩ => rfl | ⟨1, _⟩ => rfl | ⟨2, _⟩ => rfl)

theorem v13_eq (x1 x2 : (⟨Cert.ReferenceIdeal.S4x8192x3, .f32⟩ : BufTy).Contents (Elt Ideal))
    (h1 : ∀ i, ∃ r : ℝ, x1 i = (r : EReal)) (h2 : ∀ i, ∃ r : ℝ, x2 i = (r : EReal)) :
    Cert.ReferenceIdeal.Read.val_main_v13 (F := Ideal) x1 x2 = Cert.Chamfer.near1 x1 x2 := by
  funext j
  obtain ⟨b, n, rfl⟩ : ∃ b n, j = ix2 b n := ⟨j 0, j 1, eq_ix2 j⟩
  have h : S4x8192x8192.Reduces [2] S4x8192 := by decide
  have hinit : val_main_cst_2 (F := Ideal) (Shape.Idx.first h_S_) = (⊤ : EReal) := top_f32
  unfold val_main_v13
  refine (Host.reduce_eq_fold_single (FloatOps.minimumf (F := Ideal) (φ := .f32)) (val_main_v12 (F := Ideal) x1 x2)
    (val_main_cst_2 (F := Ideal)) reducesTo_S4x8192x8192_S4x8192_d2 h h_S_ (ix2 b n)).trans ?_
  rw [hinit]
  show (Finset.univ : Finset (Fin 8192)).inf (fun m => val_main_v12 (F := Ideal) x1 x2 (h.lift (ix2 b n) m))
    = Finset.univ.inf fun m : Fin 8192 => Cert.Chamfer.dist x1 x2 b n m
  refine Finset.inf_congr rfl fun m _ => ?_
  rw [lift2_eq h b n m]
  exact v12_dist x1 x2 h1 h2 b n m

theorem v14_eq (x1 x2 : (⟨Cert.ReferenceIdeal.S4x8192x3, .f32⟩ : BufTy).Contents (Elt Ideal))
    (h1 : ∀ i, ∃ r : ℝ, x1 i = (r : EReal)) (h2 : ∀ i, ∃ r : ℝ, x2 i = (r : EReal)) :
    Cert.ReferenceIdeal.Read.val_main_v14 (F := Ideal) x1 x2 = Cert.Chamfer.near2 x1 x2 := by
  funext j
  obtain ⟨b, m, rfl⟩ : ∃ b m, j = ix2 b m := ⟨j 0, j 1, eq_ix2 j⟩
  have h : S4x8192x8192.Reduces [1] S4x8192 := by decide
  have hinit : val_main_cst_3 (F := Ideal) (Shape.Idx.first h_S_) = (⊤ : EReal) := top_f32
  unfold val_main_v14
  refine (Host.reduce_eq_fold_single (FloatOps.minimumf (F := Ideal) (φ := .f32)) (val_main_v12 (F := Ideal) x1 x2)
    (val_main_cst_3 (F := Ideal)) reducesTo_S4x8192x8192_S4x8192_d1 h h_S_ (ix2 b m)).trans ?_
  rw [hinit]
  show (Finset.univ : Finset (Fin 8192)).inf (fun n => val_main_v12 (F := Ideal) x1 x2 (h.lift (ix2 b m) n))
    = Finset.univ.inf fun n : Fin 8192 => Cert.Chamfer.dist x1 x2 b n m
  refine Finset.inf_congr rfl fun n _ => ?_
  rw [lift1_eq h b m n]
  exact v12_dist x1 x2 h1 h2 b n m

end Cert.ReferenceIdeal.RefValue

end
-- ==== Proof.Finite.lean ====
/-
  From the precondition to finiteness.

  The precondition is all(|x1| < +∞) and all(|x2| < +∞): each a conjunction, over every entry of a cloud, of the
  comparison of the entry's absolute value with +∞.  On the extended reals the absolute value of x is max x (-x),
  which is +∞ exactly at the two infinities; so a true comparison leaves a real number.  A conjunction over all
  entries that is true is true at each entry.
-/
import proofs.«101443_j43800076484722_2_alg».proof.Defs
import proofs.«101443_j43800076484722_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws
import Mathlib.Data.EReal.Basic

noncomputable section

namespace Cert.Proof.Finite

open Idealize.ShloMosaic Idealize.SL.Sem Idealize.ShloMosaic.ValueIdx
open Cert.Pre_finite_inputs (S4x8192x3 S_)

/-- The scalar shape has one index. -/
instance : Subsingleton S_.Idx := ⟨fun _ _ => funext fun d => d.elim0⟩

/-- The pattern of the f32 +∞. -/
theorem top_f32 : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  by_cases ht : x = ⊤
  · subst ht; simp [Ideal.cmp] at h
  by_cases hb : x = ⊥
  · subst hb; simp [Ideal.cmp] at h
  exact ⟨x.toReal, (EReal.coe_toReal ht hb).symm⟩

/-- A true all(|x| < +∞) makes every entry of x a real number. -/
theorem real_of_all (x : FVec Ideal S4x8192x3 .f32)
    (hb : S_.BroadcastsInDim S4x8192x3 (![] : Fin 0 → Fin S4x8192x3.rank))
    (hr : S4x8192x3.ReducesTo [0, 1, 2] S_) (hu : 0 < S_.numel)
    (e : Host.reduce IntOp.andi
          (cmpf .olt (Host.absf x) (broadcastInDim S4x8192x3 ![] hb (constant (F := Ideal) S_ .f32 0x7F800000#32)))
          (constantI S_ 1 1#1) hr hu ix0 = 1#1)
    (i : S4x8192x3.Idx) : ∃ r : ℝ, x i = (r : EReal) := by
  have hi := Host.reduce_andi_all _ _ hr hu ix0 e i
  have hc : broadcastInDim S4x8192x3 ![] hb (constant (F := Ideal) S_ .f32 0x7F800000#32) i = (⊤ : EReal) :=
    (broadcastInDim_apply _ hb _ i ix0 (fun a => a.elim0)).trans top_f32
  have hx : Ideal.cmp .olt (max (x i) (-(x i))) ⊤ = 1#1 := by
    rw [← hc]; exact hi
  exact real_of_abs_lt_top (x i) hx

/-- Both conjuncts of the precondition, opened. -/
theorem finite_of_fn [Cert.Pre_finite_inputs.Facts] (x1 x2 : FVec Ideal S4x8192x3 .f32)
    (h : Cert.Pre_finite_inputs.fn (F := Ideal) x1 x2 = fun _ => 1#1) :
    (∀ i, ∃ r : ℝ, x1 i = (r : EReal)) ∧ (∀ i, ∃ r : ℝ, x2 i = (r : EReal)) := by
  have h0 := congrFun h ix0
  dsimp only [Cert.Pre_finite_inputs.fn] at h0
  obtain ⟨ha, hb⟩ := IntOp.andi_eq_one.1 h0
  exact ⟨real_of_all x1 _ _ _ ha, real_of_all x2 _ _ _ hb⟩

theorem finite_of_pre (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  finite_of_fn _ _ (h c)

end Cert.Proof.Finite

end
-- ==== Proof.lean ====
/-
  The nearest-neighbour minima of two clouds of points, computed tile by tile, against their direct definition.

  Both programs take two clouds x1, x2 of 8192 points of three coordinates for each of four batch entries and return, for
  every point of each cloud, the least squared distance to the other cloud.  The reference expands the squared distance
  as |u|² + |v|² − 2⟨u, v⟩ over the whole 8192 × 8192 table and takes the row and column minima.  The kernel sweeps the
  table in tiles of 512 × 512, computes each entry as the sum of the three squared coordinate differences, and keeps two
  running minima across the sweep: one per row of the current row of tiles, restarted at every row of tiles, and one per
  column of the whole table, restarted at every batch entry.

  At the extended reals the two are one function of finite inputs: for real coordinates (v − u)² = u² + v² − 2uv
  coordinate by coordinate (the identity fails at infinities, which is where the precondition is used), and a minimum over
  8192 points from +inf is the infimum of the sixteen tile infima, accumulated in any order.  The kernel's side
  is: what one step of the sweep leaves (Pieces, Steps), the running minima as the specification's by induction on the
  step (Sweep), the result arrays from the blocks written back and the final reshapes (Final).  The reference's side is
  its operations read at an index (RefValue).  The frames of the two kernel programs are the generated ones; the
  reference's frame is its run with the results dropped; no operation was rewritten by the idealization.
-/
import proofs.«101443_j43800076484722_2_alg».proof.Defs
import proofs.«101443_j43800076484722_2_alg».proof.Proof.Gen.Kernel
import proofs.«101443_j43800076484722_2_alg».proof.Proof.Gen.Kernel.Frame
import proofs.«101443_j43800076484722_2_alg».proof.Proof.Gen.KernelIdeal
import proofs.«101443_j43800076484722_2_alg».proof.Proof.Gen.KernelIdeal.Frame
import proofs.«101443_j43800076484722_2_alg».proof.Proof.Gen.ReferenceIdeal
import proofs.«101443_j43800076484722_2_alg».proof.Proof.Gen.ReferenceIdeal.Run
import proofs.«101443_j43800076484722_2_alg».proof.Proof.Gen.ReferenceIdeal.Read
import proofs.«101443_j43800076484722_2_alg».proof.Proof.Gen.Pre_finite_inputs
import proofs.«101443_j43800076484722_2_alg».proof.Proof.Final
import proofs.«101443_j43800076484722_2_alg».proof.Proof.RefValue
import proofs.«101443_j43800076484722_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and its arguments end unchanged: its run with the two results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the two tables of least squared distances of their (agreeing, finite) arguments. -/
theorem algebraic : Cert.algebraic_KernelIdeal_ReferenceIdeal := by
  intro m ρ m' ρ' hpre hagree
  refine ⟨fun c => Cert.Chamfer.near1 (Cert.KernelIdeal.Sweep.X1 m c) (Cert.KernelIdeal.Sweep.X2 m c),
    fun c => Cert.Chamfer.near2 (Cert.KernelIdeal.Sweep.X1 m c) (Cert.KernelIdeal.Sweep.X2 m c),
    Cert.KernelIdeal.Sweep.run m ρ, ?_⟩
  refine (θ_run Cert.ReferenceIdeal.defs _ _).mono (fun _ h c => ?_) (Cert.ReferenceIdeal.Value.run (F := Ideal) m' ρ')
  obtain ⟨f1, f2⟩ := Cert.Proof.Finite.finite_of_pre m hpre c
  refine ⟨(h c).1.trans ?_, (h c).2.1.trans ?_, (h c).2.2.1, (h c).2.2.2⟩
  · rw [Cert.ReferenceIdeal.Read.val_main_v13_eq, (hagree c).1, (hagree c).2]
    exact Cert.ReferenceIdeal.RefValue.v13_eq _ _ f1 f2
  · rw [Cert.ReferenceIdeal.Read.val_main_v14_eq, (hagree c).1, (hagree c).2]
    exact Cert.ReferenceIdeal.RefValue.v14_eq _ _ f1 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
